-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 25], ![false, false]⟩

def k0_cond3 (i : grid0.Coords) : BitVec 1 :=
  let arg0 : BitVec 32 := BitVec.ofNat 32 (i 0).val
  let c0_i32_7 : BitVec 32 := 0#32
  let v14 : BitVec 1 := Scalar.cmpi .eq arg0 c0_i32_7
  let v15 : BitVec 32 := Scalar.extui v14
  let c0_i32_8 : BitVec 32 := 0#32
  let v16 : BitVec 1 := Scalar.cmpi .ne v15 c0_i32_8
  v16

def k0_off1 (i : grid0.Coords) : Fin 2 → Nat :=
  let c24_i32 : BitVec 32 := 24#32
  let arg1 : BitVec 32 := BitVec.ofNat 32 (i 1).val
  let v20 : BitVec 32 := Scalar.subi c24_i32 arg1
  let c400_i32 : BitVec 32 := 400#32
  let v21 : BitVec 32 := Scalar.muli v20 c400_i32
  let v23 : Index := Scalar.indexCast v21
  let c0_11 : Index := 0#32
  ![v23.toNat, 0]
def k0_cond4 (i : grid0.Coords) : BitVec 1 :=
  let arg0 : BitVec 32 := BitVec.ofNat 32 (i 0).val
  let c1_i32_9 : BitVec 32 := 1#32
  let v17 : BitVec 1 := Scalar.cmpi .eq arg0 c1_i32_9
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c24_i32 : BitVec 32 := 24#32
  let v1 : BitVec 32 := Scalar.muli v0 c24_i32
  let c2_i32 : BitVec 32 := 2#32
  let v2 : BitVec 32 := Scalar.muli c2_i32 arg0
  let c1_i32_0 : BitVec 32 := 1#32
  let v3 : BitVec 32 := Scalar.subi v2 c1_i32_0
  let v4 : BitVec 32 := Scalar.muli v3 arg1
  let v5 : BitVec 32 := Scalar.addi v1 v4
  let c0_i32 : BitVec 32 := 0#32
  let c0_i32_1 : BitVec 32 := 0#32
  ![v5.toNat, c0_i32.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ (k0_h3 : k0_cond3 i = 1#1), ∀ a, (k0_off1 i) a + S400x128.size a ≤ S10000x128.size a
  k0_off1_packedbf16 : ∀ i : grid0.Coords, ∀ (k0_h3 : k0_cond3 i = 1#1), (Rect.unit (s := S10000x128) (k0_off1 i) S400x128.size (k0_off1_inb i k0_h3)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KB.Cases.lean ====
/-
  The four shapes of grid point of the two-phase graph-convolution kernel, decided over its 2 × 25 grid.

  The grid point t = 25·p + j runs phase p on row block j.  The body branches on four conditions of
  the coordinates: "p = 0 and j = 0" (compute z₁ = X·W₁ into the first scratch), "p = 1 and j = 0"
  (compute z₂ = H·W₂ from the second scratch into the first), "p = 0" (store the block's product with
  the first scratch as a row band of the second scratch) and "p = 1" (store it into the output block).
  Hence four cases: t = 0, 0 < t < 25, t = 25, 25 < t.  The output window is idle and not written back
  exactly in phase 0; in phase 1 it is live.
-/
import proofs.«169656_g90984587198652_cont_sun_m_16_7_alg».proof.Proof.Gen.Kernel.Frame
import proofs.«169656_g90984587198652_cont_sun_m_16_7_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, as the body computes them, and where on the grid they hold -/

/-- "phase 0 and block 0": the first product z₁ is computed here. -/
abbrev condZ1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcondZ1 : ∀ t : Fin cfg0.N, condZ1 (grid0.coords t) ↔ t.val = 0 :=
  (by decide +kernel : ∀ t : Fin grid0.N, condZ1 (grid0.coords t) ↔ t.val = 0)

/-- "phase 1 and block 0": the second product z₂ is computed here. -/
abbrev condZ2 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
theorem hcondZ2 : ∀ t : Fin cfg0.N, condZ2 (grid0.coords t) ↔ t.val = 25 :=
  (by decide +kernel : ∀ t : Fin grid0.N, condZ2 (grid0.coords t) ↔ t.val = 25)

/-- "phase 0": the block's product is stored as a row band of H. -/
abbrev condH (i : grid0.Coords) : Prop := k0_cond3 i = 1#1
theorem hcondH : ∀ t : Fin cfg0.N, condH (grid0.coords t) ↔ t.val < 25 :=
  (by decide +kernel : ∀ t : Fin grid0.N, condH (grid0.coords t) ↔ t.val < 25)

/-- "phase 1": the block's product is stored into the output block. -/
abbrev condO (i : grid0.Coords) : Prop := k0_cond4 i = 1#1
theorem hcondO : ∀ t : Fin cfg0.N, condO (grid0.coords t) ↔ 25 ≤ t.val :=
  (by decide +kernel : ∀ t : Fin grid0.N, condO (grid0.coords t) ↔ 25 ≤ t.val)

/-- The row band of H that phase-0 point t stores: rows 400·(24 − t) … 400·(25 − t) − 1. -/
theorem hoffH : ∀ t : Fin cfg0.N, t.val < 25 → k0_off1 (grid0.coords t) = ![(24 - t.val) * 400, 0] :=
  (by decide +kernel : ∀ t : Fin grid0.N, t.val < 25 → k0_off1 (grid0.coords t) = ![(24 - t.val) * 400, 0])

/-! ## Where the windows are idle and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, t.val < 25 → cfg0.idle 4 (grid0.coords t) = true := by decide +kernel
theorem noFlush4 : ∀ t : Fin cfg0.N, t.val < 25 → (cfg0.win 4).flush t = false := by decide +kernel
theorem live4 : ∀ t : Fin cfg0.N, 25 ≤ t.val → cfg0.idle 4 (grid0.coords t) = false := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S400x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The two scratch buffers: z (the current right factor) and H (the hidden layer, one row band per phase-0 point). -/
abbrev scZ : Memref sig .tc .vmem S10000x128 .bf16 := Memref.whole cc0_scratch0
abbrev scH : Memref sig .tc .vmem S10000x128 .bf16 := Memref.whole cc0_scratch1

/-- The region's invariant at entry and exit, with the two scratch buffers as memrefs owned at some contents. -/
theorem PhiA_eq (c : Dev nD) :
    (Pipeline.ΦA spec0 c : sProp 𝕄)
      = iprop(iprop((∃ d, owns (c : Thread nD τ) scZ fullShare d) ∗ (∃ d, owns (c : Thread nD τ) scH fullShare d)) ∗ (∃ r, prngReg c r)) := by
  unfold Pipeline.ΦA; rw [scopedRest0_eq]; simp only [scZ, scH, owns_whole]; try rfl

end Cert.Kernel.Body

end
-- ==== Proof.KB.Band.lean ====
/-
  Storing one 400-row band into the hidden-layer scratch.

  A phase-0 point overwrites rows off … off + 399 of the 10000 × 128 scratch H with a 400 × 128 block and leaves
  every other row as it was.  `bandStore` names the contents after such a store; inside the band they are the
  block, outside it the contents before.
-/
import proofs.«169656_g90984587198652_cont_sun_m_16_7_alg».proof.Proof.KB.Cases
import Idealize.ShloMosaic.Lib.Writes
import Idealize.ShloMosaic.Lib.Pipeline.Value
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Both offsets of a whole-buffer rectangle are zero. -/
theorem hz2 : (![0, 0] : Fin 2 → ℕ) = fun _ => 0 := by
  funext a; match a with | ⟨0, _⟩ => rfl | ⟨1, _⟩ => rfl

/-- One store through the whole-buffer rectangle leaves its payload, whatever the buffer held. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  subst hz; funext y
  have e := View.read_writes_cons_emb v f (Rect.whole S) w [] y
  rw [Rect.emb_whole_apply] at e
  exact e

/-- The band of H a phase-0 point stores into. -/
abbrev band (i : grid0.Coords) (h3 : condH i) : Rect S10000x128 :=
  Rect.unit (s := S10000x128) (k0_off1 i) S400x128.size (k0_off1_inb i h3)

/-- The contents of H (read through any whole memref `M` of it) after block `w` is stored into the point's band over contents `h`. -/
def bandStore (i : grid0.Coords) (h3 : condH i) (M : Memref sig .tc .vmem S10000x128 .bf16) (hM : M.IsWhole)
    (h : Vec F S10000x128 .bf16) (w : Vec F S400x128 .bf16) : Vec F S10000x128 .bf16 :=
  M.view.read (Elt F) (M.view.writes (Elt F) (hM.unread h) [⟨band i h3, w⟩])

/-- Inside the band the store's block is read back. -/
theorem bandStore_in (i : grid0.Coords) (h3 : condH i) (M : Memref sig .tc .vmem S10000x128 .bf16) (hM : M.IsWhole)
    (h : Vec F S10000x128 .bf16) (w : Vec F S400x128 .bf16) (x : (band i h3).shape.Idx) :
    bandStore i h3 M hM h w ((band i h3).emb x) = w x :=
  View.read_writes_cons_emb M.view (hM.unread h) (band i h3) w [] x

/-- Outside the band nothing changed. -/
theorem bandStore_out (i : grid0.Coords) (h3 : condH i) (M : Memref sig .tc .vmem S10000x128 .bf16) (hM : M.IsWhole)
    (h : Vec F S10000x128 .bf16) (w : Vec F S400x128 .bf16) (y : S10000x128.Idx) (hy : y ∉ (band i h3).set) :
    bandStore i h3 M hM h w y = h y := by
  unfold bandStore
  rw [View.read_writes_apply_of_forall_not_mem M.view (hM.unread h) y [⟨band i h3, w⟩]
    (fun p hp => by rw [List.mem_singleton.mp hp]; exact hy), hM.read_unread]

end Cert.Kernel.Body

end
-- ==== Proof.KB.Data.lean ====
/-
  What the two scratch buffers hold between grid points, as functions of the argument arrays.

  Phase 0 leaves z₁ = X·W₁ (rounded to bf16) in the first scratch from its first point on, and fills the second
  scratch H from the bottom band upward: point t (0 ≤ t < 25) stores rows 400·(24 − t) … 400·(25 − t) − 1, each band
  the (rounded) product of the A block the point stages with z₁.  So before point n ≤ 25 the rows from 400·(25 − n)
  on already hold the finished hidden layer, and before point 25 all of H does.  Phase 1 replaces the first scratch
  by z₂ = H·W₂ (rounded) at its first point and never reads H again; its point t stores the product of its A block
  with z₂ into the output block.  Everything here is stated for any float instance.
-/
import proofs.«169656_g90984587198652_cont_sun_m_16_7_alg».proof.Proof.KB.Band
import Idealize.ShloMosaic.Lib.ValueIdx
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The staged blocks, at their literal shapes -/

def xblk (c : Dev nD) (t : Fin cfg0.N) : Vec F S10000x128 .f32 := iblk m c 0 t
def w1blk (c : Dev nD) (t : Fin cfg0.N) : Vec F S128x128 .f32 := iblk m c 1 t
def w2blk (c : Dev nD) (t : Fin cfg0.N) : Vec F S128x128 .f32 := iblk m c 2 t
def ablk (c : Dev nD) (t : Fin cfg0.N) : Vec F S400x10000 .f32 := iblk m c 3 t

/-- The first point of phase 0 and of phase 1. -/
def pt0 : Fin cfg0.N := ⟨0, by decide⟩
def pt25 : Fin cfg0.N := ⟨25, by decide⟩

/-! ## The scratch contents -/

/-- z₁: the first product, as point 0 computes it. -/
def Z1 (c : Dev nD) : Vec F S10000x128 .bf16 := k0_pay1 (xblk m c pt0) (w1blk m c pt0)

/-- The phase-0 point that stores row `r` of H. -/
def ptOfRow (r : ℕ) : Fin cfg0.N := ⟨(24 - r / 400) % 50, lt_of_lt_of_eq (Nat.mod_lt _ (by decide)) N_0.symm⟩

/-- The finished hidden layer: row `r` is row `r % 400` of the product the point `24 − r / 400` stores. -/
def Hfull (c : Dev nD) : Vec F S10000x128 .bf16 := fun y =>
  k0_pay4 (ablk m c (ptOfRow (y 0).val)) (Z1 m c)
    (ix2 (⟨(y 0).val % 400, Nat.mod_lt _ (by decide)⟩ : Fin 400) (⟨(y 1).val, idx2_lt1 y⟩ : Fin 128))

/-- z₂: the second product, as point 25 computes it from the finished H. -/
def Z2 (c : Dev nD) : Vec F S10000x128 .bf16 := k0_pay2 (Hfull m c) (w2blk m c pt25)

/-- Before point `n` of phase 0 the rows of H from 400·(25 − n) on are finished. -/
def HInv (c : Dev nD) (n : ℕ) (H : Vec F S10000x128 .bf16) : Prop :=
  ∀ y : S10000x128.Idx, (25 - n) * 400 ≤ (y 0).val → H y = Hfull m c y

theorem HInv_zero (c : Dev nD) (H : Vec F S10000x128 .bf16) : HInv m c 0 H := fun y hy => by
  have := idx2_lt0 y; omega

theorem eq_Hfull_of_HInv (c : Dev nD) (H : Vec F S10000x128 .bf16) (h : HInv m c 25 H) : H = Hfull m c :=
  funext fun y => h y (Nat.zero_le _)

/-- One more band: the store of point `t` extends the finished rows downward by 400. -/
theorem HInv_step (c : Dev nD) (t : Fin cfg0.N) (ht : t.val < 25) (M : Memref sig .tc .vmem S10000x128 .bf16) (hM : M.IsWhole)
    (H : Vec F S10000x128 .bf16) (hH : HInv m c t.val H) :
    HInv m c (t.val + 1) (bandStore (grid0.coords t) ((hcondH t).mpr ht) M hM H (k0_pay4 (ablk m c t) (Z1 m c))) := by
  intro y hy
  have hoff := hoffH t ht
  by_cases hin : y ∈ (band (grid0.coords t) ((hcondH t).mpr ht)).set
  · obtain ⟨x, rfl⟩ := (band (grid0.coords t) ((hcondH t).mpr ht)).exists_idx_of_mem hin
    have e0 : (((band (grid0.coords t) ((hcondH t).mpr ht)).emb x 0 : Fin _) : ℕ) = (24 - t.val) * 400 + (x 0).val := by
      rw [Rect.emb_apply]; show k0_off1 (grid0.coords t) 0 + 1 * (x 0).val = _; rw [hoff]; simp
    have e1 : (((band (grid0.coords t) ((hcondH t).mpr ht)).emb x 1 : Fin _) : ℕ) = (x 1).val := by
      rw [Rect.emb_apply]; show k0_off1 (grid0.coords t) 1 + 1 * (x 1).val = _; rw [hoff]; simp
    have hx0 : (x 0).val < 400 := (x 0).isLt
    refine (bandStore_in _ _ M hM H _ x).trans ?_
    show _ = Hfull m c ((band (grid0.coords t) ((hcondH t).mpr ht)).emb x)
    unfold Hfull
    have hp : ptOfRow ((band (grid0.coords t) ((hcondH t).mpr ht)).emb x 0).val = t := by
      apply Fin.ext; show (24 - _ / 400) % 50 = t.val; rw [e0]; omega
    rw [hp]
    congr 1
    funext a
    match a with
    | ⟨0, _⟩ => apply Fin.ext; show (x 0).val = _ % 400; rw [e0]; omega
    | ⟨1, _⟩ => apply Fin.ext; show (x 1).val = _; rw [e1]
  · rw [bandStore_out _ _ M hM H _ y hin]
    apply hH
    rw [Rect.mem_set_unit] at hin
    have h1 := idx2_lt1 y
    by_contra hlt
    apply hin
    intro a
    match a with
    | ⟨0, _⟩ => rw [hoff]; constructor
                · show (24 - t.val) * 400 ≤ (y 0).val; omega
                · show (y 0).val < (24 - t.val) * 400 + 400; omega
    | ⟨1, _⟩ => rw [hoff]; constructor
                · show 0 ≤ (y 1).val; omega
                · show (y 1).val < 0 + 128; omega

end Cert.Kernel.Body

end
-- ==== Proof.KB.RunA.lean ====
/-
  The body at the first grid point (phase 0, block 0).

  It computes z₁ from the X and W₁ blocks and stores it over the whole first scratch, reads it back, multiplies the
  A block by it and stores the product into the point's band of H.  The output block is not touched.
-/
import proofs.«169656_g90984587198652_cont_sun_m_16_7_alg».proof.Proof.KB.Band
import Idealize.ShloMosaic.Lib.Pipeline.FrameBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runA (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .bf16) (harg7 : arg7.IsWhole) (arg8 : Memref sig .tc .vmem S10000x128 .bf16) (harg8 : arg8.IsWhole)
    (h1 : condZ1 i) (h2 : ¬condZ2 i) (h3 : condH i) (h4 : ¬condO i)
    (x0 : Vec F S10000x128 .f32) (x1 : Vec F S128x128 .f32) (x2 : Vec F S128x128 .f32) (x3 : Vec F S400x10000 .f32) (y4 : Vec F S400x128 .f32) (h : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
        ∗ (∃ d, owns (c : Thread nD τ) arg7 fullShare d) ∗ owns (c : Thread nD τ) arg8 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
            ∗ owns (c : Thread nD τ) arg7 fullShare (k0_pay1 x0 x1) ∗ owns (c : Thread nD τ) arg8 fullShare (bandStore i h3 arg8 harg8 h (k0_pay4 x3 (k0_pay1 x0 x1)))) -∗ K ⟨⟩))
      ⊢ wp frame (wpE (defs₀ (F := F)) Variants.none c none) E (cc0__gcn_kernel i arg2 harg2 arg3 harg3 arg4 harg4 arg5 harg5 arg6 harg6 arg7 harg7 arg8 harg8) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr
    swap; · iexact H7
    ipureintro
    sl_unfold_words
    refine (read_store_whole arg7.view f7 hz2 _ _).trans ?_
    simp only [View.readAt_eq_ld, harg2.read_unread, harg3.read_unread, harg4.read_unread, harg5.read_unread, harg7.read_unread, harg8.read_unread,
      View.ld_unit_zero (S := S10000x128) hz2, View.ld_unit_zero (S := S128x128) hz2, View.ld_unit_zero (S := S400x10000) hz2,
      View.ld_unit_zero (S := S400x128) hz2, View.readCov_unit_zero (S := S10000x128) _ hz2]
  · iexists _; isplitr
    swap; · iexact H8
    ipureintro
    unfold bandStore band
    sl_unfold_words
    simp only [View.readAt_eq_ld, harg2.read_unread, harg3.read_unread, harg4.read_unread, harg5.read_unread, harg7.read_unread, harg8.read_unread,
      View.ld_unit_zero (S := S10000x128) hz2, View.ld_unit_zero (S := S128x128) hz2, View.ld_unit_zero (S := S400x10000) hz2,
      View.ld_unit_zero (S := S400x128) hz2, View.readCov_unit_zero (S := S10000x128) _ hz2]

end Cert.Kernel.Body

end
-- ==== Proof.KB.RunB.lean ====
/-
  The body at a later point of phase 0 (block j > 0).

  The first scratch still holds z₁; the body multiplies the A block by it and stores the product into the point's
  band of H.  The output block is not touched.
-/
import proofs.«169656_g90984587198652_cont_sun_m_16_7_alg».proof.Proof.KB.Band
import Idealize.ShloMosaic.Lib.Pipeline.FrameBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runB (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .bf16) (harg7 : arg7.IsWhole) (arg8 : Memref sig .tc .vmem S10000x128 .bf16) (harg8 : arg8.IsWhole)
    (h1 : ¬condZ1 i) (h2 : ¬condZ2 i) (h3 : condH i) (h4 : ¬condO i)
    (x0 : Vec F S10000x128 .f32) (x1 : Vec F S128x128 .f32) (x2 : Vec F S128x128 .f32) (x3 : Vec F S400x10000 .f32) (y4 : Vec F S400x128 .f32) (z : Vec F S10000x128 .bf16) (h : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
        ∗ owns (c : Thread nD τ) arg7 fullShare z ∗ owns (c : Thread nD τ) arg8 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
            ∗ owns (c : Thread nD τ) arg7 fullShare z ∗ owns (c : Thread nD τ) arg8 fullShare (bandStore i h3 arg8 harg8 h (k0_pay4 x3 z))) -∗ K ⟨⟩))
      ⊢ wp frame (wpE (defs₀ (F := F)) Variants.none c none) E (cc0__gcn_kernel i arg2 harg2 arg3 harg3 arg4 harg4 arg5 harg5 arg6 harg6 arg7 harg7 arg8 harg8) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; · ipureintro; exact harg7.read_unread _
    iexact H7
  · iexists _; isplitr
    swap; · iexact H8
    ipureintro
    unfold bandStore band
    sl_unfold_words
    simp only [View.readAt_eq_ld, harg2.read_unread, harg3.read_unread, harg4.read_unread, harg5.read_unread, harg7.read_unread, harg8.read_unread,
      View.ld_unit_zero (S := S10000x128) hz2, View.ld_unit_zero (S := S128x128) hz2, View.ld_unit_zero (S := S400x10000) hz2,
      View.ld_unit_zero (S := S400x128) hz2, View.readCov_unit_zero (S := S10000x128) _ hz2]

end Cert.Kernel.Body

end
-- ==== Proof.KB.RunC.lean ====
/-
  The body at the first point of phase 1 (block 0).

  H is complete.  The body computes z₂ from H and the W₂ block and stores it over the whole first scratch, reads it
  back, multiplies the A block by it and stores the product over the whole output block.
-/
import proofs.«169656_g90984587198652_cont_sun_m_16_7_alg».proof.Proof.KB.Band
import Idealize.ShloMosaic.Lib.Pipeline.FrameBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runC (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .bf16) (harg7 : arg7.IsWhole) (arg8 : Memref sig .tc .vmem S10000x128 .bf16) (harg8 : arg8.IsWhole)
    (h1 : ¬condZ1 i) (h2 : condZ2 i) (h3 : ¬condH i) (h4 : condO i)
    (x0 : Vec F S10000x128 .f32) (x1 : Vec F S128x128 .f32) (x2 : Vec F S128x128 .f32) (x3 : Vec F S400x10000 .f32) (h : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (∃ d, owns (c : Thread nD τ) arg7 fullShare d) ∗ owns (c : Thread nD τ) arg8 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x3 (k0_pay2 h x2))
            ∗ owns (c : Thread nD τ) arg7 fullShare (k0_pay2 h x2) ∗ owns (c : Thread nD τ) arg8 fullShare h) -∗ K ⟨⟩))
      ⊢ wp frame (wpE (defs₀ (F := F)) Variants.none c none) E (cc0__gcn_kernel i arg2 harg2 arg3 harg3 arg4 harg4 arg5 harg5 arg6 harg6 arg7 harg7 arg8 harg8) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d7, %f7, -, H7⟩, ⟨%f8, %hf8, H8⟩, Hk⟩
  obtain rfl := harg2.eq_unread hf0; obtain rfl := harg3.eq_unread hf1; obtain rfl := harg4.eq_unread hf2
  obtain rfl := harg5.eq_unread hf3; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    refine (read_store_whole arg6.view f4 hz2 _ _).trans ?_
    simp only [View.readAt_eq_ld, harg2.read_unread, harg3.read_unread, harg4.read_unread, harg5.read_unread, harg7.read_unread, harg8.read_unread,
      View.ld_unit_zero (S := S10000x128) hz2, View.ld_unit_zero (S := S128x128) hz2, View.ld_unit_zero (S := S400x10000) hz2,
      View.ld_unit_zero (S := S400x128) hz2, View.readCov_unit_zero (S := S10000x128) _ hz2]
  isplitl [H7]
  · iexists _; isplitr
    swap; · iexact H7
    ipureintro
    sl_unfold_words
    refine (read_store_whole arg7.view f7 hz2 _ _).trans ?_
    simp only [View.readAt_eq_ld, harg2.read_unread, harg3.read_unread, harg4.read_unread, harg5.read_unread, harg7.read_unread, harg8.read_unread,
      View.ld_unit_zero (S := S10000x128) hz2, View.ld_unit_zero (S := S128x128) hz2, View.ld_unit_zero (S := S400x10000) hz2,
      View.ld_unit_zero (S := S400x128) hz2, View.readCov_unit_zero (S := S10000x128) _ hz2]
  · iexists _; isplitr; · ipureintro; exact harg8.read_unread _
    iexact H8

end Cert.Kernel.Body

end
-- ==== Proof.KB.RunD.lean ====
/-
  The body at a later point of phase 1 (block j > 0).

  The first scratch holds z₂; the body multiplies the A block by it and stores the product over the whole output
  block.  H is no longer read.
-/
import proofs.«169656_g90984587198652_cont_sun_m_16_7_alg».proof.Proof.KB.Band
import Idealize.ShloMosaic.Lib.Pipeline.FrameBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runD (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .bf16) (harg7 : arg7.IsWhole) (arg8 : Memref sig .tc .vmem S10000x128 .bf16) (harg8 : arg8.IsWhole)
    (h1 : ¬condZ1 i) (h2 : ¬condZ2 i) (h3 : ¬condH i) (h4 : condO i)
    (x0 : Vec F S10000x128 .f32) (x1 : Vec F S128x128 .f32) (x2 : Vec F S128x128 .f32) (x3 : Vec F S400x10000 .f32) (z : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ owns (c : Thread nD τ) arg7 fullShare z ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x3 z)
            ∗ owns (c : Thread nD τ) arg7 fullShare z ∗ (∃ d, owns (c : Thread nD τ) arg8 fullShare d)) -∗ K ⟨⟩))
      ⊢ wp frame (wpE (defs₀ (F := F)) Variants.none c none) E (cc0__gcn_kernel i arg2 harg2 arg3 harg3 arg4 harg4 arg5 harg5 arg6 harg6 arg7 harg7 arg8 harg8) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%d4, %f4, -, H4⟩, ⟨%f7, %hf7, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg7.eq_unread hf7
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_store_whole arg6.view f4 hz2 _ _).trans ?_
    simp only [View.readAt_eq_ld, harg2.read_unread, harg3.read_unread, harg4.read_unread, harg5.read_unread, harg7.read_unread, harg8.read_unread,
      View.ld_unit_zero (S := S10000x128) hz2, View.ld_unit_zero (S := S128x128) hz2, View.ld_unit_zero (S := S400x10000) hz2,
      View.ld_unit_zero (S := S400x128) hz2, View.readCov_unit_zero (S := S10000x128) _ hz2]
  isplitl [H7]
  · iexists _; isplitr; · ipureintro; exact harg7.read_unread _
    iexact H7
  · iexists _; iexists _; isplitr
    swap; · iexact H8
    ipureintro; rfl

end Cert.Kernel.Body

end
-- ==== Proof.KB.Oblig.lean ====
/-
  The region's proof data and the body obligation at every grid point.

  The arrays are what the region finds.  Every input window's buffer holds its block at every point.  The output
  window is idle through phase 0 (the body hands its buffer back as it found it) and at point t ≥ 25 its buffer is
  left at the product of that point's A block with z₂.  Between points the invariant tracks the two scratch buffers
  (`PhiS`): nothing before the first point; z₁ and the finished rows of H through phase 0; z₂ through phase 1.
  The obligation is the matching run of the body in each of the four cases.
-/
import proofs.«169656_g90984587198652_cont_sun_m_16_7_alg».proof.Proof.KB.Data
import proofs.«169656_g90984587198652_cont_sun_m_16_7_alg».proof.Proof.KB.RunA
import proofs.«169656_g90984587198652_cont_sun_m_16_7_alg».proof.Proof.KB.RunB
import proofs.«169656_g90984587198652_cont_sun_m_16_7_alg».proof.Proof.KB.RunC
import proofs.«169656_g90984587198652_cont_sun_m_16_7_alg».proof.Proof.KB.RunD
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before point `n`: at entry nothing is known of the scratch; through phase 0 the first scratch holds z₁ and the
    rows of H from 400·(25 − n) on are finished; through phase 1 the first scratch holds z₂. -/
def PhiS (c : Dev nD) (n : ℕ) : sProp 𝕄 :=
  if n = 0 then Pipeline.ΦA spec0 c
  else if n ≤ 25 then
    iprop(iprop(owns (c : Thread nD τ) scZ fullShare (Z1 m c) ∗ (∃ H, ⌜HInv m c n H⌝ ∗ owns (c : Thread nD τ) scH fullShare H)) ∗ (∃ r, prngReg c r))
  else
    iprop(iprop(owns (c : Thread nD τ) scZ fullShare (Z2 m c) ∗ (∃ H, owns (c : Thread nD τ) scH fullShare H)) ∗ (∃ r, prngReg c r))

theorem PhiS_zero (c : Dev nD) : PhiS m c 0 = Pipeline.ΦA spec0 c := if_pos rfl
theorem PhiS_phase0 (c : Dev nD) (n : ℕ) (h0 : n ≠ 0) (h : n ≤ 25) :
    PhiS m c n = iprop(iprop(owns (c : Thread nD τ) scZ fullShare (Z1 m c) ∗ (∃ H, ⌜HInv m c n H⌝ ∗ owns (c : Thread nD τ) scH fullShare H)) ∗ (∃ r, prngReg c r)) :=
  (if_neg h0).trans (if_pos h)
theorem PhiS_phase1 (c : Dev nD) (n : ℕ) (h : 25 < n) :
    PhiS m c n = iprop(iprop(owns (c : Thread nD τ) scZ fullShare (Z2 m c) ∗ (∃ H, owns (c : Thread nD τ) scH fullShare H)) ∗ (∃ r, prngReg c r)) :=
  (if_neg (by omega)).trans (if_neg (by omega))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (ablk m c t) (Z2 m c)
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay3 (ablk m c t) (Z2 m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4_idle (c : Dev nD) (t : Fin cfg0.N) (ht : t.val < 25) :
    (dats m 0 c).leavesExact 4 t = iprop(∃ d, owns (c : Thread nD τ) (ms4 t) fullShare ((dats m 0 c).before 4 t d)) :=
  Dat.leavesExact_idle (dats m 0 c) 4 t (idle4 t ht) (noFlush4 t ht)
theorem leaves4_live (c : Dev nD) (t : Fin cfg0.N) (ht : 25 ≤ t.val) :
    (dats m 0 c).leavesExact 4 t = owns (c : Thread nD τ) (ms4 t) fullShare (k0_pay3 (ablk m c t) (Z2 m c)) := by
  unfold Dat.leavesExact; rw [live4 t ht, after4]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [leaves0, leaves1, leaves2, leaves3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN : t.val < 50 := lt_of_lt_of_eq t.isLt (show cfg0.N = 50 from N_0)
  by_cases hz : t.val = 0
  · -- the first point: z₁ is computed and the bottom band of H stored
    have ht : t.val < 25 := by omega
    rw [leaves4_idle m c t ht, hz, PhiS_zero, PhiA_eq, show (0 : ℕ) + 1 = 1 from rfl, PhiS_phase0 m c 1 (by decide) (by decide)]
    have et : t = pt0 := Fin.ext hz
    iintro ⟨⟨⟨HZ, ⟨%dH, HH⟩⟩, Hg⟩, Ho, ⟨%d0, H0⟩, ⟨%d1, H1⟩, ⟨%d2, H2⟩, ⟨%d3, H3⟩, ⟨%d4, H4⟩⟩
    iapply (runA c (grid0.coords t) (ms0 t) (hs0 t) (ms1 t) (hs1 t) (ms2 t) (hs2 t) (ms3 t) (hs3 t) (ms4 t) (hs4 t) scZ (Memref.isWhole_whole _) scH (Memref.isWhole_whole _) ((hcondZ1 t).mpr hz) (fun h => by have := (hcondZ2 t).mp h; omega) ((hcondH t).mpr ht) (fun h => by have := (hcondO t).mp h; omega) (iblk m c 0 t) (iblk m c 1 t) (iblk m c 2 t) (iblk m c 3 t) ((dats m 0 c).before 4 t d4) dH Set.univ _)
    isplitl [H0]; · iexact H0
    isplitl [H1]; · iexact H1
    isplitl [H2]; · iexact H2
    isplitl [H3]; · iexact H3
    isplitl [H4]; · iexact H4
    isplitl [HZ]; · iexact HZ
    isplitl [HH]; · iexact HH
    iintro ⟨H0, H1, H2, H3, H4, HZ, HH⟩
    isplitl [HZ HH Hg]
    · isplitl [HZ HH]
      · isplitl [HZ]
        · rw [et]; iexact HZ
        · iexists _; isplitr
          swap; · iexact HH
          ipureintro
          have e1 : k0_pay1 (iblk m c 0 t) (iblk m c 1 t) = Z1 m c := by rw [et]; rfl
          rw [e1]
          intro y hy
          exact HInv_step m c t ht scH (Memref.isWhole_whole _) dH (by rw [hz]; exact HInv_zero m c dH) y (by omega)
      iexact Hg
    isplitl [Ho]; · iexact Ho
    isplitl [H0]; · iexact H0
    isplitl [H1]; · iexact H1
    isplitl [H2]; · iexact H2
    isplitl [H3]; · iexact H3
    iexists _; iexact H4
  · by_cases ht : t.val < 25
    · -- a later point of phase 0: one more band of H
      have h25 : t.val ≠ 25 := by omega
      rw [leaves4_idle m c t ht, PhiS_phase0 m c t.val hz (by omega), PhiS_phase0 m c (t.val + 1) (by omega) (by omega)]
      iintro ⟨⟨⟨HZ, ⟨%H, %hH, HH⟩⟩, Hg⟩, Ho, ⟨%d0, H0⟩, ⟨%d1, H1⟩, ⟨%d2, H2⟩, ⟨%d3, H3⟩, ⟨%d4, H4⟩⟩
      iapply (runB c (grid0.coords t) (ms0 t) (hs0 t) (ms1 t) (hs1 t) (ms2 t) (hs2 t) (ms3 t) (hs3 t) (ms4 t) (hs4 t) scZ (Memref.isWhole_whole _) scH (Memref.isWhole_whole _) (fun h => hz ((hcondZ1 t).mp h)) (fun h => h25 ((hcondZ2 t).mp h)) ((hcondH t).mpr ht) (fun h => by have := (hcondO t).mp h; omega) (iblk m c 0 t) (iblk m c 1 t) (iblk m c 2 t) (iblk m c 3 t) ((dats m 0 c).before 4 t d4) (Z1 m c) H Set.univ _)
      isplitl [H0]; · iexact H0
      isplitl [H1]; · iexact H1
      isplitl [H2]; · iexact H2
      isplitl [H3]; · iexact H3
      isplitl [H4]; · iexact H4
      isplitl [HZ]; · iexact HZ
      isplitl [HH]; · iexact HH
      iintro ⟨H0, H1, H2, H3, H4, HZ, HH⟩
      isplitl [HZ HH Hg]
      · isplitl [HZ HH]
        · isplitl [HZ]
          · iexact HZ
          · iexists _; isplitr
            swap; · iexact HH
            ipureintro
            exact HInv_step m c t ht scH (Memref.isWhole_whole _) H hH
        iexact Hg
      isplitl [Ho]; · iexact Ho
      isplitl [H0]; · iexact H0
      isplitl [H1]; · iexact H1
      isplitl [H2]; · iexact H2
      isplitl [H3]; · iexact H3
      iexists _; iexact H4
    · have hge : 25 ≤ t.val := by omega
      rw [leaves4_live m c t hge]
      by_cases h25 : t.val = 25
      · -- the first point of phase 1: H is complete, z₂ is computed
        have et : t = pt25 := Fin.ext h25
        rw [PhiS_phase0 m c t.val hz (by omega), PhiS_phase1 m c (t.val + 1) (by omega)]
        iintro ⟨⟨⟨HZ, ⟨%H, %hH, HH⟩⟩, Hg⟩, Ho, ⟨%d0, H0⟩, ⟨%d1, H1⟩, ⟨%d2, H2⟩, ⟨%d3, H3⟩, ⟨%d4, H4⟩⟩
        obtain rfl : H = Hfull m c := eq_Hfull_of_HInv m c H (by rw [h25] at hH; exact hH)
        iapply (runC c (grid0.coords t) (ms0 t) (hs0 t) (ms1 t) (hs1 t) (ms2 t) (hs2 t) (ms3 t) (hs3 t) (ms4 t) (hs4 t) scZ (Memref.isWhole_whole _) scH (Memref.isWhole_whole _) (fun h => hz ((hcondZ1 t).mp h)) ((hcondZ2 t).mpr h25) (fun h => by have := (hcondH t).mp h; omega) ((hcondO t).mpr hge) (iblk m c 0 t) (iblk m c 1 t) (iblk m c 2 t) (iblk m c 3 t) (Hfull m c) Set.univ _)
        isplitl [H0]; · iexact H0
        isplitl [H1]; · iexact H1
        isplitl [H2]; · iexact H2
        isplitl [H3]; · iexact H3
        isplitl [H4]; · iexists _; iexact H4
        isplitl [HZ]; · iexists _; iexact HZ
        isplitl [HH]; · iexact HH
        iintro ⟨H0, H1, H2, H3, H4, HZ, HH⟩
        isplitl [HZ HH Hg]
        · isplitl [HZ HH]
          · isplitl [HZ]
            · rw [et]; iexact HZ
            · iexists _; iexact HH
          iexact Hg
        isplitl [Ho]; · iexact Ho
        isplitl [H0]; · iexact H0
        isplitl [H1]; · iexact H1
        isplitl [H2]; · iexact H2
        isplitl [H3]; · iexact H3
        rw [et]; iexact H4
      · -- a later point of phase 1
        rw [PhiS_phase1 m c t.val (by omega), PhiS_phase1 m c (t.val + 1) (by omega)]
        iintro ⟨⟨⟨HZ, HH⟩, Hg⟩, Ho, ⟨%d0, H0⟩, ⟨%d1, H1⟩, ⟨%d2, H2⟩, ⟨%d3, H3⟩, ⟨%d4, H4⟩⟩
        iapply (runD c (grid0.coords t) (ms0 t) (hs0 t) (ms1 t) (hs1 t) (ms2 t) (hs2 t) (ms3 t) (hs3 t) (ms4 t) (hs4 t) scZ (Memref.isWhole_whole _) scH (Memref.isWhole_whole _) (fun h => hz ((hcondZ1 t).mp h)) (fun h => h25 ((hcondZ2 t).mp h)) (fun h => by have := (hcondH t).mp h; omega) ((hcondO t).mpr hge) (iblk m c 0 t) (iblk m c 1 t) (iblk m c 2 t) (iblk m c 3 t) (Z2 m c) Set.univ _)
        isplitl [H0]; · iexact H0
        isplitl [H1]; · iexact H1
        isplitl [H2]; · iexact H2
        isplitl [H3]; · iexact H3
        isplitl [H4]; · iexists _; iexact H4
        isplitl [HZ]; · iexact HZ
        isplitl [HH]; · iexact HH
        iintro ⟨H0, H1, H2, H3, H4, HZ, HH⟩
        isplitl [HZ HH Hg]
        · isplitl [HZ HH]
          · isplitl [HZ]
            · iexact HZ
            · iexact HH
          iexact Hg
        isplitl [Ho]; · iexact Ho
        isplitl [H0]; · iexact H0
        isplitl [H1]; · iexact H1
        isplitl [H2]; · iexact H2
        isplitl [H3]; · iexact H3
        iexact H4

theorem body_obligation (c : Dev nD) : BodyObligation (dats (F := F) m 0 c) (defs₀ (F := F)) Variants.none () Set.univ := fun t => by
  rw [bigSep_W0, bigSep_W0]
  exact sound_body m c t

/-! ## Entry, exit, the run and the frame -/

theorem hin (c : Dev nD) : Pipeline.ΦA spec0 c ⊢ (dats m 0 c).Φ 0 := by
  rw [show (dats m 0 c).Φ 0 = PhiS m c 0 from rfl, PhiS_zero]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c 50 from by
    show PhiS m c (Fin.last cfg0.N).val = _; rw [Fin.val_last, show cfg0.N = 50 from N_0]]
  rw [PhiS_phase1 m c 50 (by decide), PhiA_eq]
  iintro ⟨⟨HZ, HH⟩, Hg⟩
  isplitl [HZ HH]
  · isplitl [HZ]
    · iexists _; iexact HZ
    · iexact HH
  iexact Hg

set_option backward.isDefEq.respectTransparency.types false in
/-- Every weakly fair execution of @main terminates; afterwards every array of the pipeline holds what the
    library computes from the proof data and every other unscoped buffer is as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KI.Cases.lean ====
/-
  The four shapes of grid point of the two-phase graph-convolution kernel, decided over its 2 × 25 grid.

  The grid point t = 25·p + j runs phase p on row block j.  The body branches on four conditions of
  the coordinates: "p = 0 and j = 0" (compute z₁ = X·W₁ into the first scratch), "p = 1 and j = 0"
  (compute z₂ = H·W₂ from the second scratch into the first), "p = 0" (store the block's product with
  the first scratch as a row band of the second scratch) and "p = 1" (store it into the output block).
  Hence four cases: t = 0, 0 < t < 25, t = 25, 25 < t.  The output window is idle and not written back
  exactly in phase 0; in phase 1 it is live.
-/
import proofs.«169656_g90984587198652_cont_sun_m_16_7_alg».proof.Proof.Gen.KernelIdeal.Frame
import proofs.«169656_g90984587198652_cont_sun_m_16_7_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, as the body computes them, and where on the grid they hold -/

/-- "phase 0 and block 0": the first product z₁ is computed here. -/
abbrev condZ1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcondZ1 : ∀ t : Fin cfg0.N, condZ1 (grid0.coords t) ↔ t.val = 0 :=
  (by decide +kernel : ∀ t : Fin grid0.N, condZ1 (grid0.coords t) ↔ t.val = 0)

/-- "phase 1 and block 0": the second product z₂ is computed here. -/
abbrev condZ2 (i : grid0.Coords) : Prop :=
  (Scalar.cmpi .ne (Scalar.extui (Scalar.andi (Scalar.cmpi .eq (BitVec.ofNat 32 (i 0).val) 1#32) (Scalar.cmpi .eq (BitVec.ofNat 32 (i 1).val) 0#32))) 0#32) = 1#1
theorem hcondZ2 : ∀ t : Fin cfg0.N, condZ2 (grid0.coords t) ↔ t.val = 25 :=
  (by decide +kernel : ∀ t : Fin grid0.N, condZ2 (grid0.coords t) ↔ t.val = 25)

/-- "phase 0": the block's product is stored as a row band of H. -/
abbrev condH (i : grid0.Coords) : Prop := k0_cond3 i = 1#1
theorem hcondH : ∀ t : Fin cfg0.N, condH (grid0.coords t) ↔ t.val < 25 :=
  (by decide +kernel : ∀ t : Fin grid0.N, condH (grid0.coords t) ↔ t.val < 25)

/-- "phase 1": the block's product is stored into the output block. -/
abbrev condO (i : grid0.Coords) : Prop := k0_cond4 i = 1#1
theorem hcondO : ∀ t : Fin cfg0.N, condO (grid0.coords t) ↔ 25 ≤ t.val :=
  (by decide +kernel : ∀ t : Fin grid0.N, condO (grid0.coords t) ↔ 25 ≤ t.val)

/-- The row band of H that phase-0 point t stores: rows 400·(24 − t) … 400·(25 − t) − 1. -/
theorem hoffH : ∀ t : Fin cfg0.N, t.val < 25 → k0_off1 (grid0.coords t) = ![(24 - t.val) * 400, 0] :=
  (by decide +kernel : ∀ t : Fin grid0.N, t.val < 25 → k0_off1 (grid0.coords t) = ![(24 - t.val) * 400, 0])

/-! ## Where the windows are idle and where the output is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, t.val < 25 → cfg0.idle 4 (grid0.coords t) = true := by decide +kernel
theorem noFlush4 : ∀ t : Fin cfg0.N, t.val < 25 → (cfg0.win 4).flush t = false := by decide +kernel
theorem live4 : ∀ t : Fin cfg0.N, 25 ≤ t.val → cfg0.idle 4 (grid0.coords t) = false := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S400x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The two scratch buffers: z (the current right factor) and H (the hidden layer, one row band per phase-0 point). -/
abbrev scZ : Memref sig .tc .vmem S10000x128 .bf16 := Memref.whole cc0_scratch0
abbrev scH : Memref sig .tc .vmem S10000x128 .bf16 := Memref.whole cc0_scratch1

/-- The region's invariant at entry and exit, with the two scratch buffers as memrefs owned at some contents. -/
theorem PhiA_eq (c : Dev nD) :
    (Pipeline.ΦA spec0 c : sProp 𝕄)
      = iprop(iprop((∃ d, owns (c : Thread nD τ) scZ fullShare d) ∗ (∃ d, owns (c : Thread nD τ) scH fullShare d)) ∗ (∃ r, prngReg c r)) := by
  unfold Pipeline.ΦA; rw [scopedRest0_eq]; simp only [scZ, scH, owns_whole]; try rfl

end Cert.KernelIdeal.Body

end
-- ==== Proof.KI.Band.lean ====
/-
  Storing one 400-row band into the hidden-layer scratch.

  A phase-0 point overwrites rows off … off + 399 of the 10000 × 128 scratch H with a 400 × 128 block and leaves
  every other row as it was.  `bandStore` names the contents after such a store; inside the band they are the
  block, outside it the contents before.
-/
import proofs.«169656_g90984587198652_cont_sun_m_16_7_alg».proof.Proof.KI.Cases
import Idealize.ShloMosaic.Lib.Writes
import Idealize.ShloMosaic.Lib.Pipeline.Value
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Both offsets of a whole-buffer rectangle are zero. -/
theorem hz2 : (![0, 0] : Fin 2 → ℕ) = fun _ => 0 := by
  funext a; match a with | ⟨0, _⟩ => rfl | ⟨1, _⟩ => rfl

/-- One store through the whole-buffer rectangle leaves its payload, whatever the buffer held. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  subst hz; funext y
  have e := View.read_writes_cons_emb v f (Rect.whole S) w [] y
  rw [Rect.emb_whole_apply] at e
  exact e

/-- The band of H a phase-0 point stores into. -/
abbrev band (i : grid0.Coords) (h3 : condH i) : Rect S10000x128 :=
  Rect.unit (s := S10000x128) (k0_off1 i) S400x128.size (k0_off1_inb i h3)

/-- The contents of H (read through any whole memref `M` of it) after block `w` is stored into the point's band over contents `h`. -/
def bandStore (i : grid0.Coords) (h3 : condH i) (M : Memref sig .tc .vmem S10000x128 .bf16) (hM : M.IsWhole)
    (h : Vec F S10000x128 .bf16) (w : Vec F S400x128 .bf16) : Vec F S10000x128 .bf16 :=
  M.view.read (Elt F) (M.view.writes (Elt F) (hM.unread h) [⟨band i h3, w⟩])

/-- Inside the band the store's block is read back. -/
theorem bandStore_in (i : grid0.Coords) (h3 : condH i) (M : Memref sig .tc .vmem S10000x128 .bf16) (hM : M.IsWhole)
    (h : Vec F S10000x128 .bf16) (w : Vec F S400x128 .bf16) (x : (band i h3).shape.Idx) :
    bandStore i h3 M hM h w ((band i h3).emb x) = w x :=
  View.read_writes_cons_emb M.view (hM.unread h) (band i h3) w [] x

/-- Outside the band nothing changed. -/
theorem bandStore_out (i : grid0.Coords) (h3 : condH i) (M : Memref sig .tc .vmem S10000x128 .bf16) (hM : M.IsWhole)
    (h : Vec F S10000x128 .bf16) (w : Vec F S400x128 .bf16) (y : S10000x128.Idx) (hy : y ∉ (band i h3).set) :
    bandStore i h3 M hM h w y = h y := by
  unfold bandStore
  rw [View.read_writes_apply_of_forall_not_mem M.view (hM.unread h) y [⟨band i h3, w⟩]
    (fun p hp => by rw [List.mem_singleton.mp hp]; exact hy), hM.read_unread]

end Cert.KernelIdeal.Body

end
-- ==== Proof.KI.Data.lean ====
/-
  What the two scratch buffers hold between grid points, as functions of the argument arrays.

  Phase 0 leaves z₁ = X·W₁ (rounded to bf16) in the first scratch from its first point on, and fills the second
  scratch H from the bottom band upward: point t (0 ≤ t < 25) stores rows 400·(24 − t) … 400·(25 − t) − 1, each band
  the (rounded) product of the A block the point stages with z₁.  So before point n ≤ 25 the rows from 400·(25 − n)
  on already hold the finished hidden layer, and before point 25 all of H does.  Phase 1 replaces the first scratch
  by z₂ = H·W₂ (rounded) at its first point and never reads H again; its point t stores the product of its A block
  with z₂ into the output block.  Everything here is stated for any float instance.
-/
import proofs.«169656_g90984587198652_cont_sun_m_16_7_alg».proof.Proof.KI.Band
import Idealize.ShloMosaic.Lib.ValueIdx
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The staged blocks, at their literal shapes -/

def xblk (c : Dev nD) (t : Fin cfg0.N) : Vec F S10000x128 .f32 := iblk m c 0 t
def w1blk (c : Dev nD) (t : Fin cfg0.N) : Vec F S128x128 .f32 := iblk m c 1 t
def w2blk (c : Dev nD) (t : Fin cfg0.N) : Vec F S128x128 .f32 := iblk m c 2 t
def ablk (c : Dev nD) (t : Fin cfg0.N) : Vec F S400x10000 .f32 := iblk m c 3 t

/-- The first point of phase 0 and of phase 1. -/
def pt0 : Fin cfg0.N := ⟨0, by decide⟩
def pt25 : Fin cfg0.N := ⟨25, by decide⟩

/-! ## The scratch contents -/

/-- z₁: the first product, as point 0 computes it. -/
def Z1 (c : Dev nD) : Vec F S10000x128 .bf16 := k0_pay1 (xblk m c pt0) (w1blk m c pt0)

/-- The phase-0 point that stores row `r` of H. -/
def ptOfRow (r : ℕ) : Fin cfg0.N := ⟨(24 - r / 400) % 50, lt_of_lt_of_eq (Nat.mod_lt _ (by decide)) N_0.symm⟩

/-- The finished hidden layer: row `r` is row `r % 400` of the product the point `24 − r / 400` stores. -/
def Hfull (c : Dev nD) : Vec F S10000x128 .bf16 := fun y =>
  k0_pay4 (ablk m c (ptOfRow (y 0).val)) (Z1 m c)
    (ix2 (⟨(y 0).val % 400, Nat.mod_lt _ (by decide)⟩ : Fin 400) (⟨(y 1).val, idx2_lt1 y⟩ : Fin 128))

/-- z₂: the second product, as point 25 computes it from the finished H. -/
def Z2 (c : Dev nD) : Vec F S10000x128 .bf16 := k0_pay2 (Hfull m c) (w2blk m c pt25)

/-- Before point `n` of phase 0 the rows of H from 400·(25 − n) on are finished. -/
def HInv (c : Dev nD) (n : ℕ) (H : Vec F S10000x128 .bf16) : Prop :=
  ∀ y : S10000x128.Idx, (25 - n) * 400 ≤ (y 0).val → H y = Hfull m c y

theorem HInv_zero (c : Dev nD) (H : Vec F S10000x128 .bf16) : HInv m c 0 H := fun y hy => by
  have := idx2_lt0 y; omega

theorem eq_Hfull_of_HInv (c : Dev nD) (H : Vec F S10000x128 .bf16) (h : HInv m c 25 H) : H = Hfull m c :=
  funext fun y => h y (Nat.zero_le _)

/-- One more band: the store of point `t` extends the finished rows downward by 400. -/
theorem HInv_step (c : Dev nD) (t : Fin cfg0.N) (ht : t.val < 25) (M : Memref sig .tc .vmem S10000x128 .bf16) (hM : M.IsWhole)
    (H : Vec F S10000x128 .bf16) (hH : HInv m c t.val H) :
    HInv m c (t.val + 1) (bandStore (grid0.coords t) ((hcondH t).mpr ht) M hM H (k0_pay4 (ablk m c t) (Z1 m c))) := by
  intro y hy
  have hoff := hoffH t ht
  by_cases hin : y ∈ (band (grid0.coords t) ((hcondH t).mpr ht)).set
  · obtain ⟨x, rfl⟩ := (band (grid0.coords t) ((hcondH t).mpr ht)).exists_idx_of_mem hin
    have e0 : (((band (grid0.coords t) ((hcondH t).mpr ht)).emb x 0 : Fin _) : ℕ) = (24 - t.val) * 400 + (x 0).val := by
      rw [Rect.emb_apply]; show k0_off1 (grid0.coords t) 0 + 1 * (x 0).val = _; rw [hoff]; simp
    have e1 : (((band (grid0.coords t) ((hcondH t).mpr ht)).emb x 1 : Fin _) : ℕ) = (x 1).val := by
      rw [Rect.emb_apply]; show k0_off1 (grid0.coords t) 1 + 1 * (x 1).val = _; rw [hoff]; simp
    have hx0 : (x 0).val < 400 := (x 0).isLt
    refine (bandStore_in _ _ M hM H _ x).trans ?_
    show _ = Hfull m c ((band (grid0.coords t) ((hcondH t).mpr ht)).emb x)
    unfold Hfull
    have hp : ptOfRow ((band (grid0.coords t) ((hcondH t).mpr ht)).emb x 0).val = t := by
      apply Fin.ext; show (24 - _ / 400) % 50 = t.val; rw [e0]; omega
    rw [hp]
    congr 1
    funext a
    match a with
    | ⟨0, _⟩ => apply Fin.ext; show (x 0).val = _ % 400; rw [e0]; omega
    | ⟨1, _⟩ => apply Fin.ext; show (x 1).val = _; rw [e1]
  · rw [bandStore_out _ _ M hM H _ y hin]
    apply hH
    rw [Rect.mem_set_unit] at hin
    have h1 := idx2_lt1 y
    by_contra hlt
    apply hin
    intro a
    match a with
    | ⟨0, _⟩ => rw [hoff]; constructor
                · show (24 - t.val) * 400 ≤ (y 0).val; omega
                · show (y 0).val < (24 - t.val) * 400 + 400; omega
    | ⟨1, _⟩ => rw [hoff]; constructor
                · show 0 ≤ (y 1).val; omega
                · show (y 1).val < 0 + 128; omega

end Cert.KernelIdeal.Body

end
-- ==== Proof.KI.RunA.lean ====
/-
  The body at the first grid point (phase 0, block 0).

  It computes z₁ from the X and W₁ blocks and stores it over the whole first scratch, reads it back, multiplies the
  A block by it and stores the product into the point's band of H.  The output block is not touched.
-/
import proofs.«169656_g90984587198652_cont_sun_m_16_7_alg».proof.Proof.KI.Band
import Idealize.ShloMosaic.Lib.Pipeline.FrameBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runA (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .bf16) (harg7 : arg7.IsWhole) (arg8 : Memref sig .tc .vmem S10000x128 .bf16) (harg8 : arg8.IsWhole)
    (h1 : condZ1 i) (h2 : ¬condZ2 i) (h3 : condH i) (h4 : ¬condO i)
    (x0 : Vec F S10000x128 .f32) (x1 : Vec F S128x128 .f32) (x2 : Vec F S128x128 .f32) (x3 : Vec F S400x10000 .f32) (y4 : Vec F S400x128 .f32) (h : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
        ∗ (∃ d, owns (c : Thread nD τ) arg7 fullShare d) ∗ owns (c : Thread nD τ) arg8 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
            ∗ owns (c : Thread nD τ) arg7 fullShare (k0_pay1 x0 x1) ∗ owns (c : Thread nD τ) arg8 fullShare (bandStore i h3 arg8 harg8 h (k0_pay4 x3 (k0_pay1 x0 x1)))) -∗ K ⟨⟩))
      ⊢ wp frame (wpE (defs₀ (F := F)) Variants.none c none) E (cc0__gcn_kernel i arg2 harg2 arg3 harg3 arg4 harg4 arg5 harg5 arg6 harg6 arg7 harg7 arg8 harg8) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr
    swap; · iexact H7
    ipureintro
    sl_unfold_words
    refine (read_store_whole arg7.view f7 hz2 _ _).trans ?_
    simp only [View.readAt_eq_ld, harg2.read_unread, harg3.read_unread, harg4.read_unread, harg5.read_unread, harg7.read_unread, harg8.read_unread,
      View.ld_unit_zero (S := S10000x128) hz2, View.ld_unit_zero (S := S128x128) hz2, View.ld_unit_zero (S := S400x10000) hz2,
      View.ld_unit_zero (S := S400x128) hz2, View.readCov_unit_zero (S := S10000x128) _ hz2]
  · iexists _; isplitr
    swap; · iexact H8
    ipureintro
    unfold bandStore band
    sl_unfold_words
    simp only [View.readAt_eq_ld, harg2.read_unread, harg3.read_unread, harg4.read_unread, harg5.read_unread, harg7.read_unread, harg8.read_unread,
      View.ld_unit_zero (S := S10000x128) hz2, View.ld_unit_zero (S := S128x128) hz2, View.ld_unit_zero (S := S400x10000) hz2,
      View.ld_unit_zero (S := S400x128) hz2, View.readCov_unit_zero (S := S10000x128) _ hz2]

end Cert.KernelIdeal.Body

end
-- ==== Proof.KI.RunB.lean ====
/-
  The body at a later point of phase 0 (block j > 0).

  The first scratch still holds z₁; the body multiplies the A block by it and stores the product into the point's
  band of H.  The output block is not touched.
-/
import proofs.«169656_g90984587198652_cont_sun_m_16_7_alg».proof.Proof.KI.Band
import Idealize.ShloMosaic.Lib.Pipeline.FrameBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runB (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .bf16) (harg7 : arg7.IsWhole) (arg8 : Memref sig .tc .vmem S10000x128 .bf16) (harg8 : arg8.IsWhole)
    (h1 : ¬condZ1 i) (h2 : ¬condZ2 i) (h3 : condH i) (h4 : ¬condO i)
    (x0 : Vec F S10000x128 .f32) (x1 : Vec F S128x128 .f32) (x2 : Vec F S128x128 .f32) (x3 : Vec F S400x10000 .f32) (y4 : Vec F S400x128 .f32) (z : Vec F S10000x128 .bf16) (h : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
        ∗ owns (c : Thread nD τ) arg7 fullShare z ∗ owns (c : Thread nD τ) arg8 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
            ∗ owns (c : Thread nD τ) arg7 fullShare z ∗ owns (c : Thread nD τ) arg8 fullShare (bandStore i h3 arg8 harg8 h (k0_pay4 x3 z))) -∗ K ⟨⟩))
      ⊢ wp frame (wpE (defs₀ (F := F)) Variants.none c none) E (cc0__gcn_kernel i arg2 harg2 arg3 harg3 arg4 harg4 arg5 harg5 arg6 harg6 arg7 harg7 arg8 harg8) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf7; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; · ipureintro; exact harg7.read_unread _
    iexact H7
  · iexists _; isplitr
    swap; · iexact H8
    ipureintro
    unfold bandStore band
    sl_unfold_words
    simp only [View.readAt_eq_ld, harg2.read_unread, harg3.read_unread, harg4.read_unread, harg5.read_unread, harg7.read_unread, harg8.read_unread,
      View.ld_unit_zero (S := S10000x128) hz2, View.ld_unit_zero (S := S128x128) hz2, View.ld_unit_zero (S := S400x10000) hz2,
      View.ld_unit_zero (S := S400x128) hz2, View.readCov_unit_zero (S := S10000x128) _ hz2]

end Cert.KernelIdeal.Body

end
-- ==== Proof.KI.RunC.lean ====
/-
  The body at the first point of phase 1 (block 0).

  H is complete.  The body computes z₂ from H and the W₂ block and stores it over the whole first scratch, reads it
  back, multiplies the A block by it and stores the product over the whole output block.
-/
import proofs.«169656_g90984587198652_cont_sun_m_16_7_alg».proof.Proof.KI.Band
import Idealize.ShloMosaic.Lib.Pipeline.FrameBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runC (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .bf16) (harg7 : arg7.IsWhole) (arg8 : Memref sig .tc .vmem S10000x128 .bf16) (harg8 : arg8.IsWhole)
    (h1 : ¬condZ1 i) (h2 : condZ2 i) (h3 : ¬condH i) (h4 : condO i)
    (x0 : Vec F S10000x128 .f32) (x1 : Vec F S128x128 .f32) (x2 : Vec F S128x128 .f32) (x3 : Vec F S400x10000 .f32) (h : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (∃ d, owns (c : Thread nD τ) arg7 fullShare d) ∗ owns (c : Thread nD τ) arg8 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x3 (k0_pay2 h x2))
            ∗ owns (c : Thread nD τ) arg7 fullShare (k0_pay2 h x2) ∗ owns (c : Thread nD τ) arg8 fullShare h) -∗ K ⟨⟩))
      ⊢ wp frame (wpE (defs₀ (F := F)) Variants.none c none) E (cc0__gcn_kernel i arg2 harg2 arg3 harg3 arg4 harg4 arg5 harg5 arg6 harg6 arg7 harg7 arg8 harg8) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d7, %f7, -, H7⟩, ⟨%f8, %hf8, H8⟩, Hk⟩
  obtain rfl := harg2.eq_unread hf0; obtain rfl := harg3.eq_unread hf1; obtain rfl := harg4.eq_unread hf2
  obtain rfl := harg5.eq_unread hf3; obtain rfl := harg8.eq_unread hf8
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    refine (read_store_whole arg6.view f4 hz2 _ _).trans ?_
    simp only [View.readAt_eq_ld, harg2.read_unread, harg3.read_unread, harg4.read_unread, harg5.read_unread, harg7.read_unread, harg8.read_unread,
      View.ld_unit_zero (S := S10000x128) hz2, View.ld_unit_zero (S := S128x128) hz2, View.ld_unit_zero (S := S400x10000) hz2,
      View.ld_unit_zero (S := S400x128) hz2, View.readCov_unit_zero (S := S10000x128) _ hz2]
  isplitl [H7]
  · iexists _; isplitr
    swap; · iexact H7
    ipureintro
    sl_unfold_words
    refine (read_store_whole arg7.view f7 hz2 _ _).trans ?_
    simp only [View.readAt_eq_ld, harg2.read_unread, harg3.read_unread, harg4.read_unread, harg5.read_unread, harg7.read_unread, harg8.read_unread,
      View.ld_unit_zero (S := S10000x128) hz2, View.ld_unit_zero (S := S128x128) hz2, View.ld_unit_zero (S := S400x10000) hz2,
      View.ld_unit_zero (S := S400x128) hz2, View.readCov_unit_zero (S := S10000x128) _ hz2]
  · iexists _; isplitr; · ipureintro; exact harg8.read_unread _
    iexact H8

end Cert.KernelIdeal.Body

end
-- ==== Proof.KI.RunD.lean ====
/-
  The body at a later point of phase 1 (block j > 0).

  The first scratch holds z₂; the body multiplies the A block by it and stores the product over the whole output
  block.  H is no longer read.
-/
import proofs.«169656_g90984587198652_cont_sun_m_16_7_alg».proof.Proof.KI.Band
import Idealize.ShloMosaic.Lib.Pipeline.FrameBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runD (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .bf16) (harg7 : arg7.IsWhole) (arg8 : Memref sig .tc .vmem S10000x128 .bf16) (harg8 : arg8.IsWhole)
    (h1 : ¬condZ1 i) (h2 : ¬condZ2 i) (h3 : ¬condH i) (h4 : condO i)
    (x0 : Vec F S10000x128 .f32) (x1 : Vec F S128x128 .f32) (x2 : Vec F S128x128 .f32) (x3 : Vec F S400x10000 .f32) (z : Vec F S10000x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ owns (c : Thread nD τ) arg7 fullShare z ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x3 z)
            ∗ owns (c : Thread nD τ) arg7 fullShare z ∗ (∃ d, owns (c : Thread nD τ) arg8 fullShare d)) -∗ K ⟨⟩))
      ⊢ wp frame (wpE (defs₀ (F := F)) Variants.none c none) E (cc0__gcn_kernel i arg2 harg2 arg3 harg3 arg4 harg4 arg5 harg5 arg6 harg6 arg7 harg7 arg8 harg8) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%d4, %f4, -, H4⟩, ⟨%f7, %hf7, H7⟩, ⟨%d8, %f8, -, H8⟩, Hk⟩
  obtain rfl := harg2.eq_unread hf0; obtain rfl := harg3.eq_unread hf1; obtain rfl := harg4.eq_unread hf2
  obtain rfl := harg5.eq_unread hf3; obtain rfl := harg7.eq_unread hf7
  sl_exec (disch := first | exact h1 | exact h2 | exact h3 | exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (read_store_whole arg6.view f4 hz2 _ _).trans ?_
    simp only [View.readAt_eq_ld, harg2.read_unread, harg3.read_unread, harg4.read_unread, harg5.read_unread, harg7.read_unread, harg8.read_unread,
      View.ld_unit_zero (S := S10000x128) hz2, View.ld_unit_zero (S := S128x128) hz2, View.ld_unit_zero (S := S400x10000) hz2,
      View.ld_unit_zero (S := S400x128) hz2, View.readCov_unit_zero (S := S10000x128) _ hz2]
  isplitl [H7]
  · iexists _; isplitr; · ipureintro; exact harg7.read_unread _
    iexact H7
  · iexists _; iexists _; isplitr
    swap; · iexact H8
    ipureintro; rfl

end Cert.KernelIdeal.Body

end
-- ==== Proof.KI.Oblig.lean ====
/-
  The region's proof data and the body obligation at every grid point.

  The arrays are what the region finds.  Every input window's buffer holds its block at every point.  The output
  window is idle through phase 0 (the body hands its buffer back as it found it) and at point t ≥ 25 its buffer is
  left at the product of that point's A block with z₂.  Between points the invariant tracks the two scratch buffers
  (`PhiS`): nothing before the first point; z₁ and the finished rows of H through phase 0; z₂ through phase 1.
  The obligation is the matching run of the body in each of the four cases.
-/
import proofs.«169656_g90984587198652_cont_sun_m_16_7_alg».proof.Proof.KI.Data
import proofs.«169656_g90984587198652_cont_sun_m_16_7_alg».proof.Proof.KI.RunA
import proofs.«169656_g90984587198652_cont_sun_m_16_7_alg».proof.Proof.KI.RunB
import proofs.«169656_g90984587198652_cont_sun_m_16_7_alg».proof.Proof.KI.RunC
import proofs.«169656_g90984587198652_cont_sun_m_16_7_alg».proof.Proof.KI.RunD
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before point `n`: at entry nothing is known of the scratch; through phase 0 the first scratch holds z₁ and the
    rows of H from 400·(25 − n) on are finished; through phase 1 the first scratch holds z₂. -/
def PhiS (c : Dev nD) (n : ℕ) : sProp 𝕄 :=
  if n = 0 then Pipeline.ΦA spec0 c
  else if n ≤ 25 then
    iprop(iprop(owns (c : Thread nD τ) scZ fullShare (Z1 m c) ∗ (∃ H, ⌜HInv m c n H⌝ ∗ owns (c : Thread nD τ) scH fullShare H)) ∗ (∃ r, prngReg c r))
  else
    iprop(iprop(owns (c : Thread nD τ) scZ fullShare (Z2 m c) ∗ (∃ H, owns (c : Thread nD τ) scH fullShare H)) ∗ (∃ r, prngReg c r))

theorem PhiS_zero (c : Dev nD) : PhiS m c 0 = Pipeline.ΦA spec0 c := if_pos rfl
theorem PhiS_phase0 (c : Dev nD) (n : ℕ) (h0 : n ≠ 0) (h : n ≤ 25) :
    PhiS m c n = iprop(iprop(owns (c : Thread nD τ) scZ fullShare (Z1 m c) ∗ (∃ H, ⌜HInv m c n H⌝ ∗ owns (c : Thread nD τ) scH fullShare H)) ∗ (∃ r, prngReg c r)) :=
  (if_neg h0).trans (if_pos h)
theorem PhiS_phase1 (c : Dev nD) (n : ℕ) (h : 25 < n) :
    PhiS m c n = iprop(iprop(owns (c : Thread nD τ) scZ fullShare (Z2 m c) ∗ (∃ H, owns (c : Thread nD τ) scH fullShare H)) ∗ (∃ r, prngReg c r)) :=
  (if_neg (by omega)).trans (if_neg (by omega))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (ablk m c t) (Z2 m c)
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay3 (ablk m c t) (Z2 m c) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4_idle (c : Dev nD) (t : Fin cfg0.N) (ht : t.val < 25) :
    (dats m 0 c).leavesExact 4 t = iprop(∃ d, owns (c : Thread nD τ) (ms4 t) fullShare ((dats m 0 c).before 4 t d)) :=
  Dat.leavesExact_idle (dats m 0 c) 4 t (idle4 t ht) (noFlush4 t ht)
theorem leaves4_live (c : Dev nD) (t : Fin cfg0.N) (ht : 25 ≤ t.val) :
    (dats m 0 c).leavesExact 4 t = owns (c : Thread nD τ) (ms4 t) fullShare (k0_pay3 (ablk m c t) (Z2 m c)) := by
  unfold Dat.leavesExact; rw [live4 t ht, after4]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [leaves0, leaves1, leaves2, leaves3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN : t.val < 50 := lt_of_lt_of_eq t.isLt (show cfg0.N = 50 from N_0)
  by_cases hz : t.val = 0
  · -- the first point: z₁ is computed and the bottom band of H stored
    have ht : t.val < 25 := by omega
    rw [leaves4_idle m c t ht, hz, PhiS_zero, PhiA_eq, show (0 : ℕ) + 1 = 1 from rfl, PhiS_phase0 m c 1 (by decide) (by decide)]
    have et : t = pt0 := Fin.ext hz
    iintro ⟨⟨⟨HZ, ⟨%dH, HH⟩⟩, Hg⟩, Ho, ⟨%d0, H0⟩, ⟨%d1, H1⟩, ⟨%d2, H2⟩, ⟨%d3, H3⟩, ⟨%d4, H4⟩⟩
    iapply (runA c (grid0.coords t) (ms0 t) (hs0 t) (ms1 t) (hs1 t) (ms2 t) (hs2 t) (ms3 t) (hs3 t) (ms4 t) (hs4 t) scZ (Memref.isWhole_whole _) scH (Memref.isWhole_whole _) ((hcondZ1 t).mpr hz) (fun h => by have := (hcondZ2 t).mp h; omega) ((hcondH t).mpr ht) (fun h => by have := (hcondO t).mp h; omega) (iblk m c 0 t) (iblk m c 1 t) (iblk m c 2 t) (iblk m c 3 t) ((dats m 0 c).before 4 t d4) dH Set.univ _)
    isplitl [H0]; · iexact H0
    isplitl [H1]; · iexact H1
    isplitl [H2]; · iexact H2
    isplitl [H3]; · iexact H3
    isplitl [H4]; · iexact H4
    isplitl [HZ]; · iexact HZ
    isplitl [HH]; · iexact HH
    iintro ⟨H0, H1, H2, H3, H4, HZ, HH⟩
    isplitl [HZ HH Hg]
    · isplitl [HZ HH]
      · isplitl [HZ]
        · rw [et]; iexact HZ
        · iexists _; isplitr
          swap; · iexact HH
          ipureintro
          have e1 : k0_pay1 (iblk m c 0 t) (iblk m c 1 t) = Z1 m c := by rw [et]; rfl
          rw [e1]
          intro y hy
          exact HInv_step m c t ht scH (Memref.isWhole_whole _) dH (by rw [hz]; exact HInv_zero m c dH) y (by omega)
      iexact Hg
    isplitl [Ho]; · iexact Ho
    isplitl [H0]; · iexact H0
    isplitl [H1]; · iexact H1
    isplitl [H2]; · iexact H2
    isplitl [H3]; · iexact H3
    iexists _; iexact H4
  · by_cases ht : t.val < 25
    · -- a later point of phase 0: one more band of H
      have h25 : t.val ≠ 25 := by omega
      rw [leaves4_idle m c t ht, PhiS_phase0 m c t.val hz (by omega), PhiS_phase0 m c (t.val + 1) (by omega) (by omega)]
      iintro ⟨⟨⟨HZ, ⟨%H, %hH, HH⟩⟩, Hg⟩, Ho, ⟨%d0, H0⟩, ⟨%d1, H1⟩, ⟨%d2, H2⟩, ⟨%d3, H3⟩, ⟨%d4, H4⟩⟩
      iapply (runB c (grid0.coords t) (ms0 t) (hs0 t) (ms1 t) (hs1 t) (ms2 t) (hs2 t) (ms3 t) (hs3 t) (ms4 t) (hs4 t) scZ (Memref.isWhole_whole _) scH (Memref.isWhole_whole _) (fun h => hz ((hcondZ1 t).mp h)) (fun h => h25 ((hcondZ2 t).mp h)) ((hcondH t).mpr ht) (fun h => by have := (hcondO t).mp h; omega) (iblk m c 0 t) (iblk m c 1 t) (iblk m c 2 t) (iblk m c 3 t) ((dats m 0 c).before 4 t d4) (Z1 m c) H Set.univ _)
      isplitl [H0]; · iexact H0
      isplitl [H1]; · iexact H1
      isplitl [H2]; · iexact H2
      isplitl [H3]; · iexact H3
      isplitl [H4]; · iexact H4
      isplitl [HZ]; · iexact HZ
      isplitl [HH]; · iexact HH
      iintro ⟨H0, H1, H2, H3, H4, HZ, HH⟩
      isplitl [HZ HH Hg]
      · isplitl [HZ HH]
        · isplitl [HZ]
          · iexact HZ
          · iexists _; isplitr
            swap; · iexact HH
            ipureintro
            exact HInv_step m c t ht scH (Memref.isWhole_whole _) H hH
        iexact Hg
      isplitl [Ho]; · iexact Ho
      isplitl [H0]; · iexact H0
      isplitl [H1]; · iexact H1
      isplitl [H2]; · iexact H2
      isplitl [H3]; · iexact H3
      iexists _; iexact H4
    · have hge : 25 ≤ t.val := by omega
      rw [leaves4_live m c t hge]
      by_cases h25 : t.val = 25
      · -- the first point of phase 1: H is complete, z₂ is computed
        have et : t = pt25 := Fin.ext h25
        rw [PhiS_phase0 m c t.val hz (by omega), PhiS_phase1 m c (t.val + 1) (by omega)]
        iintro ⟨⟨⟨HZ, ⟨%H, %hH, HH⟩⟩, Hg⟩, Ho, ⟨%d0, H0⟩, ⟨%d1, H1⟩, ⟨%d2, H2⟩, ⟨%d3, H3⟩, ⟨%d4, H4⟩⟩
        obtain rfl : H = Hfull m c := eq_Hfull_of_HInv m c H (by rw [h25] at hH; exact hH)
        iapply (runC c (grid0.coords t) (ms0 t) (hs0 t) (ms1 t) (hs1 t) (ms2 t) (hs2 t) (ms3 t) (hs3 t) (ms4 t) (hs4 t) scZ (Memref.isWhole_whole _) scH (Memref.isWhole_whole _) (fun h => hz ((hcondZ1 t).mp h)) ((hcondZ2 t).mpr h25) (fun h => by have := (hcondH t).mp h; omega) ((hcondO t).mpr hge) (iblk m c 0 t) (iblk m c 1 t) (iblk m c 2 t) (iblk m c 3 t) (Hfull m c) Set.univ _)
        isplitl [H0]; · iexact H0
        isplitl [H1]; · iexact H1
        isplitl [H2]; · iexact H2
        isplitl [H3]; · iexact H3
        isplitl [H4]; · iexists _; iexact H4
        isplitl [HZ]; · iexists _; iexact HZ
        isplitl [HH]; · iexact HH
        iintro ⟨H0, H1, H2, H3, H4, HZ, HH⟩
        isplitl [HZ HH Hg]
        · isplitl [HZ HH]
          · isplitl [HZ]
            · rw [et]; iexact HZ
            · iexists _; iexact HH
          iexact Hg
        isplitl [Ho]; · iexact Ho
        isplitl [H0]; · iexact H0
        isplitl [H1]; · iexact H1
        isplitl [H2]; · iexact H2
        isplitl [H3]; · iexact H3
        rw [et]; iexact H4
      · -- a later point of phase 1
        rw [PhiS_phase1 m c t.val (by omega), PhiS_phase1 m c (t.val + 1) (by omega)]
        iintro ⟨⟨⟨HZ, HH⟩, Hg⟩, Ho, ⟨%d0, H0⟩, ⟨%d1, H1⟩, ⟨%d2, H2⟩, ⟨%d3, H3⟩, ⟨%d4, H4⟩⟩
        iapply (runD c (grid0.coords t) (ms0 t) (hs0 t) (ms1 t) (hs1 t) (ms2 t) (hs2 t) (ms3 t) (hs3 t) (ms4 t) (hs4 t) scZ (Memref.isWhole_whole _) scH (Memref.isWhole_whole _) (fun h => hz ((hcondZ1 t).mp h)) (fun h => h25 ((hcondZ2 t).mp h)) (fun h => by have := (hcondH t).mp h; omega) ((hcondO t).mpr hge) (iblk m c 0 t) (iblk m c 1 t) (iblk m c 2 t) (iblk m c 3 t) (Z2 m c) Set.univ _)
        isplitl [H0]; · iexact H0
        isplitl [H1]; · iexact H1
        isplitl [H2]; · iexact H2
        isplitl [H3]; · iexact H3
        isplitl [H4]; · iexists _; iexact H4
        isplitl [HZ]; · iexact HZ
        isplitl [HH]; · iexact HH
        iintro ⟨H0, H1, H2, H3, H4, HZ, HH⟩
        isplitl [HZ HH Hg]
        · isplitl [HZ HH]
          · isplitl [HZ]
            · iexact HZ
            · iexact HH
          iexact Hg
        isplitl [Ho]; · iexact Ho
        isplitl [H0]; · iexact H0
        isplitl [H1]; · iexact H1
        isplitl [H2]; · iexact H2
        isplitl [H3]; · iexact H3
        iexact H4

theorem body_obligation (c : Dev nD) : BodyObligation (dats (F := F) m 0 c) (defs₀ (F := F)) Variants.none () Set.univ := fun t => by
  rw [bigSep_W0, bigSep_W0]
  exact sound_body m c t

/-! ## Entry, exit, the run and the frame -/

theorem hin (c : Dev nD) : Pipeline.ΦA spec0 c ⊢ (dats m 0 c).Φ 0 := by
  rw [show (dats m 0 c).Φ 0 = PhiS m c 0 from rfl, PhiS_zero]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c 50 from by
    show PhiS m c (Fin.last cfg0.N).val = _; rw [Fin.val_last, show cfg0.N = 50 from N_0]]
  rw [PhiS_phase1 m c 50 (by decide), PhiA_eq]
  iintro ⟨⟨HZ, HH⟩, Hg⟩
  isplitl [HZ HH]
  · isplitl [HZ]
    · iexists _; iexact HZ
    · iexact HH
  iexact Hg

set_option backward.isDefEq.respectTransparency.types false in
/-- Every weakly fair execution of @main terminates; afterwards every array of the pipeline holds what the
    library computes from the proof data and every other unscoped buffer is as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KI.BlockAt.lean ====
/-
  Where the staged blocks and the output blocks sit in their arrays.

  X, W₁ and W₂ are staged whole.  The A window's block at point t is the 400-row band number 24 − t in phase 0
  (the bands are walked from the bottom up) and number t − 25 in phase 1; the output block written back at a
  phase-1 point t is band t − 25, and only phase-1 points write back.  So an entry of a staged block is the
  argument array's entry at the band's offset plus the entry's row.
-/
import proofs.«169656_g90984587198652_cont_sun_m_16_7_alg».proof.Proof.KI.Data
import Idealize.ShloMosaic.Lib.Pipeline.Value
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The index maps over the grid -/

theorem idxX : ∀ t : Fin cfg0.N, win0_0.index t 0 = 0 ∧ win0_0.index t 1 = 0 :=
  (by decide +kernel : ∀ t : Fin grid0.N, win0_0.index t 0 = 0 ∧ win0_0.index t 1 = 0)
theorem idxW1 : ∀ t : Fin cfg0.N, win0_1.index t 0 = 0 ∧ win0_1.index t 1 = 0 :=
  (by decide +kernel : ∀ t : Fin grid0.N, win0_1.index t 0 = 0 ∧ win0_1.index t 1 = 0)
theorem idxW2 : ∀ t : Fin cfg0.N, win0_2.index t 0 = 0 ∧ win0_2.index t 1 = 0 :=
  (by decide +kernel : ∀ t : Fin grid0.N, win0_2.index t 0 = 0 ∧ win0_2.index t 1 = 0)
/-- The band of A staged at point t. -/
def bandA (t : ℕ) : ℕ := if t < 25 then 24 - t else t - 25
theorem idxA : ∀ t : Fin cfg0.N, win0_3.index t 0 = bandA t.val ∧ win0_3.index t 1 = 0 :=
  (by decide +kernel : ∀ t : Fin grid0.N, win0_3.index t 0 = bandA t.val ∧ win0_3.index t 1 = 0)
theorem idxO : ∀ t : Fin cfg0.N, 25 ≤ t.val → win0_4.index t 0 = t.val - 25 ∧ win0_4.index t 1 = 0 :=
  (by decide +kernel : ∀ t : Fin grid0.N, 25 ≤ t.val → win0_4.index t 0 = t.val - 25 ∧ win0_4.index t 1 = 0)
theorem flushO : ∀ t : Fin cfg0.N, (cfg0.win 4).flush t = true ↔ 25 ≤ t.val :=
  (by decide +kernel : ∀ t : Fin grid0.N, (cfg0.win 4).flush t = true ↔ 25 ≤ t.val)

/-! ## The staged blocks read at an entry -/

theorem xblk_apply (c : Dev nD) (t : Fin cfg0.N) (y : S10000x128.Idx) :
    xblk m c t y = (m ((c : Thread nD τ).loc main_arg0) : S10000x128.Idx → Elt F .f32) y := by
  unfold xblk iblk
  rw [View.read_apply]
  show V m c main_arg0 _ = m (c.tc.loc main_arg0) _
  unfold V
  congr 1
  funext a
  apply Fin.ext
  match a with
  | ⟨0, _⟩ => show win0_0.index t 0 * 10000 + 1 * (y 0).val = (y 0).val; rw [(idxX t).1]; omega
  | ⟨1, _⟩ => show win0_0.index t 1 * 128 + 1 * (y 1).val = (y 1).val; rw [(idxX t).2]; omega

theorem w1blk_apply (c : Dev nD) (t : Fin cfg0.N) (y : S128x128.Idx) :
    w1blk m c t y = (m ((c : Thread nD τ).loc main_arg2) : S128x128.Idx → Elt F .f32) y := by
  unfold w1blk iblk
  rw [View.read_apply]
  show V m c main_arg2 _ = m (c.tc.loc main_arg2) _
  unfold V
  congr 1
  funext a
  apply Fin.ext
  match a with
  | ⟨0, _⟩ => show win0_1.index t 0 * 128 + 1 * (y 0).val = (y 0).val; rw [(idxW1 t).1]; omega
  | ⟨1, _⟩ => show win0_1.index t 1 * 128 + 1 * (y 1).val = (y 1).val; rw [(idxW1 t).2]; omega

theorem w2blk_apply (c : Dev nD) (t : Fin cfg0.N) (y : S128x128.Idx) :
    w2blk m c t y = (m ((c : Thread nD τ).loc main_arg3) : S128x128.Idx → Elt F .f32) y := by
  unfold w2blk iblk
  rw [View.read_apply]
  show V m c main_arg3 _ = m (c.tc.loc main_arg3) _
  unfold V
  congr 1
  funext a
  apply Fin.ext
  match a with
  | ⟨0, _⟩ => show win0_2.index t 0 * 128 + 1 * (y 0).val = (y 0).val; rw [(idxW2 t).1]; omega
  | ⟨1, _⟩ => show win0_2.index t 1 * 128 + 1 * (y 1).val = (y 1).val; rw [(idxW2 t).2]; omega

/-- Entry (r, k) of the A block staged at point t is A's entry (400·band + r, k). -/
theorem ablk_apply (c : Dev nD) (t : Fin cfg0.N) (x : S400x10000.Idx) (k : S10000x10000.Idx)
    (hk0 : (k 0).val = bandA t.val * 400 + (x 0).val) (hk1 : (k 1).val = (x 1).val) :
    ablk m c t x = (m ((c : Thread nD τ).loc main_arg1) : S10000x10000.Idx → Elt F .f32) k := by
  unfold ablk iblk
  rw [View.read_apply]
  show V m c main_arg1 _ = m (c.tc.loc main_arg1) _
  unfold V
  congr 1
  funext a
  apply Fin.ext
  match a with
  | ⟨0, _⟩ => show win0_3.index t 0 * 400 + 1 * (x 0).val = (k 0).val; rw [(idxA t).1, hk0]; omega
  | ⟨1, _⟩ => show win0_3.index t 1 * 10000 + 1 * (x 1).val = (k 1).val; rw [(idxA t).2, hk1]; omega

/-- Where entry y of the output block written back at a phase-1 point t lands in the result array: row 400·(t − 25) + y₀, -/
theorem oblk_emb0 (t : Fin cfg0.N) (ht : 25 ≤ t.val) (y : S400x128.Idx) :
    ((((cfg0.win 4).blk t).view.emb y) 0 : ℕ) = (t.val - 25) * 400 + (y 0).val := by
  show win0_4.index t 0 * 400 + 1 * (y 0).val = _; rw [(idxO t ht).1]; omega
/-- column y₁. -/
theorem oblk_emb1 (t : Fin cfg0.N) (ht : 25 ≤ t.val) (y : S400x128.Idx) :
    ((((cfg0.win 4).blk t).view.emb y) 1 : ℕ) = (y 1).val := by
  show win0_4.index t 1 * 128 + 1 * (y 1).val = _; rw [(idxO t ht).2]; omega

end Cert.KernelIdeal.Body

end
-- ==== Proof.Spec.lean ====
/-
  The mathematics both programs compute, over the extended reals: the matrix product as a plain sum, and the two-layer
  graph convolution  A · ((A · (X · W₁)) · W₂)  built from it.  No program is mentioned here.
-/
import Idealize.ShloMosaic.Lib.ValueIdx

noncomputable section

open scoped BigOperators

namespace Cert.GcnSpec

open Idealize.ShloMosaic Idealize.ShloMosaic.ValueIdx

/-- The product of an a × K and a K × b matrix: entry (p, q) is ∑ₖ l(p, k) · r(k, q). -/
def mm {a K b : ℕ} (l : (⟨2, ![a, K]⟩ : Shape).Idx → EReal) (r : (⟨2, ![K, b]⟩ : Shape).Idx → EReal) :
    (⟨2, ![a, b]⟩ : Shape).Idx → EReal :=
  fun i => ∑ k : Fin K, l (ix2 (⟨(i 0).val, idx2_lt0 i⟩ : Fin a) k) * r (ix2 k (⟨(i 1).val, idx2_lt1 i⟩ : Fin b))

theorem mm_apply {a K b : ℕ} (l : (⟨2, ![a, K]⟩ : Shape).Idx → EReal) (r : (⟨2, ![K, b]⟩ : Shape).Idx → EReal) (p : Fin a) (q : Fin b) :
    mm l r (ix2 p q) = ∑ k : Fin K, l (ix2 p k) * r (ix2 k q) := rfl

/-- The two graph-convolution layers without activation: A · ((A · (X · W₁)) · W₂). -/
def gcn (X : (⟨2, ![10000, 128]⟩ : Shape).Idx → EReal) (A : (⟨2, ![10000, 10000]⟩ : Shape).Idx → EReal)
    (W1 W2 : (⟨2, ![128, 128]⟩ : Shape).Idx → EReal) : (⟨2, ![10000, 128]⟩ : Shape).Idx → EReal :=
  mm A (mm (mm A (mm X W1)) W2)

end Cert.GcnSpec

end
-- ==== Proof.KI.PayAt.lean ====
/-
  At the ideal instance every payload of the kernel body is a matrix product.

  The matrix unit's product into a zero accumulator is the plain sum over the contracted axis; the changes of float
  format around it are the identity on extended reals, and a shape cast to the same shape does nothing.  So z₁ = X·W₁,
  z₂ = H·W₂, and each 400-row block product (the band of H, the output block) is the A block times the scratch.
-/
import proofs.«169656_g90984587198652_cont_sun_m_16_7_alg».proof.Proof.Gen.KernelIdeal.Skeleton
import proofs.«169656_g90984587198652_cont_sun_m_16_7_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Val

open Idealize.ShloMosaic Idealize.ShloMosaic.ValueIdx Cert.KernelIdeal Cert.KernelIdeal.Gen Cert.GcnSpec
open Facts₀

theorem lhs_thin_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_thin_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs_thin_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs_thin_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem lhs_wide_0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_wide_1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem rhs_wide_0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem rhs_wide_1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A 10000 × 128 by 128 × 128 product on the matrix unit, from zero, is the matrix product. -/
theorem matmul_thin {φ₁ φ₂ : FTy} (l : FVec Ideal S10000x128 φ₁) (r : FVec Ideal S128x128 φ₂) :
    (matmul dot_S10000x128_S128x128_S10000x128_1_0_0_1_n_n none l r (constant (F := Ideal) S10000x128 .f32 0x00000000#32) : FVec Ideal S10000x128 .f32) = mm l r := by
  funext i
  show FloatOps.matmul dot_S10000x128_S128x128_S10000x128_1_0_0_1_n_n none l r (constant (F := Ideal) S10000x128 .f32 0x00000000#32) i = _
  rw [Ideal.matmul_constant_zero_apply, ← Equiv.sum_comp (ValueIdx.contrEquiv1 dot_S10000x128_S128x128_S10000x128_1_0_0_1_n_n 128 rfl rfl).symm]
  unfold mm
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = ix2 (⟨(i 0).val, idx2_lt0 i⟩ : Fin _) k := funext fun a => Fin.ext (by
    match a with
    | ⟨0, _⟩ => exact lhs_thin_0 _ _
    | ⟨1, _⟩ => exact (lhs_thin_1 _ _).trans hk)
  have er : dot_S10000x128_S128x128_S10000x128_1_0_0_1_n_n.rhsIdx i ((ValueIdx.contrEquiv1 dot_S10000x128_S128x128_S10000x128_1_0_0_1_n_n 128 rfl rfl).symm k) = ix2 k (⟨(i 1).val, idx2_lt1 i⟩ : Fin _) := funext fun a => Fin.ext (by
    match a with
    | ⟨0, _⟩ => exact (rhs_thin_0 _ _).trans hk
    | ⟨1, _⟩ => exact rhs_thin_1 _ _)
  rw [el, er]

/-- A 400 × 10000 by 10000 × 128 product on the matrix unit, from zero, is the matrix product. -/
theorem matmul_wide {φ₁ φ₂ : FTy} (l : FVec Ideal S400x10000 φ₁) (r : FVec Ideal S10000x128 φ₂) :
    (matmul dot_S400x10000_S10000x128_S400x128_1_0_0_1_n_n none l r (constant (F := Ideal) S400x128 .f32 0x00000000#32) : FVec Ideal S400x128 .f32) = mm l r := by
  funext i
  show FloatOps.matmul dot_S400x10000_S10000x128_S400x128_1_0_0_1_n_n none l r (constant (F := Ideal) S400x128 .f32 0x00000000#32) i = _
  rw [Ideal.matmul_constant_zero_apply, ← Equiv.sum_comp (ValueIdx.contrEquiv1 dot_S400x10000_S10000x128_S400x128_1_0_0_1_n_n 10000 rfl rfl).symm]
  unfold mm
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx i ((ValueIdx.contrEquiv1 dot_S400x10000_S10000x128_S400x128_1_0_0_1_n_n 10000 rfl rfl).symm k) = ix2 (⟨(i 0).val, idx2_lt0 i⟩ : Fin _) k := funext fun a => Fin.ext (by
    match a with
    | ⟨0, _⟩ => exact lhs_wide_0 _ _
    | ⟨1, _⟩ => exact (lhs_wide_1 _ _).trans hk)
  have er : dot_S400x10000_S10000x128_S400x128_1_0_0_1_n_n.rhsIdx i ((ValueIdx.contrEquiv1 dot_S400x10000_S10000x128_S400x128_1_0_0_1_n_n 10000 rfl rfl).symm k) = ix2 k (⟨(i 1).val, idx2_lt1 i⟩ : Fin _) := funext fun a => Fin.ext (by
    match a with
    | ⟨0, _⟩ => exact (rhs_wide_0 _ _).trans hk
    | ⟨1, _⟩ => exact rhs_wide_1 _ _)
  rw [el, er]

theorem pay1_eq (x : Vec Ideal S10000x128 .f32) (w : Vec Ideal S128x128 .f32) : k0_pay1 (F := Ideal) x w = mm x w := by
  unfold k0_pay1
  dsimp only
  rw [shapeCast_self]
  exact matmul_thin (φ₁ := .bf16) (φ₂ := .bf16) x w

theorem pay2_eq (h : Vec Ideal S10000x128 .bf16) (w : Vec Ideal S128x128 .f32) : k0_pay2 (F := Ideal) h w = mm h w := by
  unfold k0_pay2
  dsimp only
  rw [shapeCast_self]
  exact matmul_thin (φ₁ := .bf16) (φ₂ := .bf16) h w

theorem pay3_eq (a : Vec Ideal S400x10000 .f32) (z : Vec Ideal S10000x128 .bf16) : k0_pay3 (F := Ideal) a z = mm a z := by
  unfold k0_pay3
  exact matmul_wide (φ₁ := .bf16) (φ₂ := .bf16) a z

theorem pay4_eq (a : Vec Ideal S400x10000 .f32) (z : Vec Ideal S10000x128 .bf16) : k0_pay4 (F := Ideal) a z = mm a z := by
  unfold k0_pay4
  dsimp only
  rw [shapeCast_self, pay3_eq]
  rfl

end Cert.KernelIdeal.Val

end
-- ==== Proof.KI.Final.lean ====
/-
  The idealized kernel's result array is the graph convolution of its arguments.

  At the ideal instance z₁ = X·W₁; row r of the finished hidden layer is row r of A·z₁ (the band 24 − t that point t
  stores is exactly the band of A that point stages, so reading the band back by row gives A's own rows); z₂ = H·W₂;
  and the block a phase-1 point t writes back is rows 400·(t − 25) … of A·z₂.  The 25 blocks of phase 1 tile the
  result array, so it ends at A·((A·(X·W₁))·W₂).
-/
import proofs.«169656_g90984587198652_cont_sun_m_16_7_alg».proof.Proof.KI.Oblig
import proofs.«169656_g90984587198652_cont_sun_m_16_7_alg».proof.Proof.KI.BlockAt
import proofs.«169656_g90984587198652_cont_sun_m_16_7_alg».proof.Proof.KI.PayAt
import proofs.«169656_g90984587198652_cont_sun_m_16_7_alg».proof.Proof.Spec
import Idealize.ShloMosaic.Lib.Pipeline.Value

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.GcnSpec

variable (m : (ℓ : Loc nD τ sig) → Buf (Elt Ideal) ℓ) (ρ : Dev nD → PrngReg)

/-- The four argument arrays as matrices of extended reals. -/
abbrev Xv (c : Dev nD) : S10000x128.Idx → EReal := m ((c : Thread nD τ).loc main_arg0)
abbrev Av (c : Dev nD) : S10000x10000.Idx → EReal := m ((c : Thread nD τ).loc main_arg1)
abbrev W1v (c : Dev nD) : S128x128.Idx → EReal := m ((c : Thread nD τ).loc main_arg2)
abbrev W2v (c : Dev nD) : S128x128.Idx → EReal := m ((c : Thread nD τ).loc main_arg3)

theorem Z1_eq (c : Dev nD) : Z1 m c = mm (Xv m c) (W1v m c) := by
  unfold Z1
  rw [pay1_eq, show xblk m c pt0 = Xv m c from funext fun y => xblk_apply m c pt0 y,
    show w1blk m c pt0 = W1v m c from funext fun y => w1blk_apply m c pt0 y]

/-- The finished hidden layer is A·z₁, row by row. -/
theorem Hfull_eq (c : Dev nD) : Hfull m c = mm (Av m c) (Z1 m c) := by
  funext y
  unfold Hfull
  rw [pay4_eq]
  generalize Z1 m c = z
  unfold mm
  refine Finset.sum_congr rfl fun k _ => ?_
  refine congrArg₂ (· * ·) (ablk_apply m c _ _ _ ?_ rfl) rfl
  have h0 := idx2_lt0 y
  show (y 0).val = bandA ((24 - (y 0).val / 400) % 50) * 400 + (y 0).val % 400
  unfold bandA
  split_ifs <;> omega

theorem Z2_eq (c : Dev nD) : Z2 m c = mm (mm (Av m c) (mm (Xv m c) (W1v m c))) (W2v m c) := by
  unfold Z2
  rw [pay2_eq, Hfull_eq, Z1_eq, show w2blk m c pt25 = W2v m c from funext fun y => w2blk_apply m c pt25 y]

/-- The result: the graph convolution of the four arguments. -/
abbrev G (c : Dev nD) : Buf (Elt Ideal) ((c : Thread nD τ).loc main_v0) :=
  gcn (Xv m c) (Av m c) (W1v m c) (W2v m c)

/-- What a phase-1 point writes back is its block of the result. -/
theorem flushed_eq (c : Dev nD) (t : Fin cfg0.N) (hf : (cfg0.win 4).flush t = true) :
    (dats m 0 c).flushed 4 t = ((cfg0.win 4).blk t).view.read (Elt Ideal) (G m c) := by
  have ht : 25 ≤ t.val := (flushO t).mp hf
  show (cfg0.win 4).cut (grid0.coords t) ((dats m 0 c).after 4 t) = _
  rw [after4, pay3_eq, Z2_eq]
  funext y
  rw [View.read_apply]
  show mm (ablk m c t) (mm (mm (Av m c) (mm (Xv m c) (W1v m c))) (W2v m c)) y
    = gcn (Xv m c) (Av m c) (W1v m c) (W2v m c) (((cfg0.win 4).blk t).view.emb y)
  unfold gcn
  generalize mm (mm (Av m c) (mm (Xv m c) (W1v m c))) (W2v m c) = R
  unfold mm
  refine Finset.sum_congr rfl fun k _ => ?_
  have e0 := oblk_emb0 t ht y
  have e1 := oblk_emb1 t ht y
  refine congrArg₂ (· * ·) (ablk_apply m c t _ _ ?_ rfl) (congrArg R ?_)
  · show ((((cfg0.win 4).blk t).view.emb y) 0 : ℕ) = bandA t.val * 400 + (y 0).val
    rw [e0]; unfold bandA; rw [if_neg (by omega)]
  · funext a
    match a with
    | ⟨0, _⟩ => rfl
    | ⟨1, _⟩ => exact Fin.ext e1.symm

/-- Every entry of the result array lies in the block of some phase-1 point. -/
theorem cover (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : ℕ) < 10000 := (i 0).isLt
  have h1 : (i 1 : ℕ) < 128 := (i 1).isLt
  have hN : cfg0.N = 50 := N_0
  let t : Fin cfg0.N := ⟨25 + (i 0 : ℕ) / 400, by rw [hN]; omega⟩
  have ht : 25 ≤ t.val := Nat.le_add_right _ _
  refine ⟨t, (flushO t).mpr ht, ?_⟩
  show i ∈ ((View.whole main_v0).slice (win0_4.rect t)).set
  rw [View.set_slice_whole, Rect.mem_set_unit]
  intro a
  match a with
  | ⟨0, _⟩ =>
    show win0_4.index t 0 * win0_4.size 0 ≤ (i 0 : ℕ) ∧ (i 0 : ℕ) < win0_4.index t 0 * win0_4.size 0 + win0_4.xsize (grid0.coords t) 0
    rw [(idxO t ht).1, show win0_4.size 0 = 400 from rfl, show win0_4.xsize (grid0.coords t) 0 = 400 from rfl]
    show (25 + (i 0 : ℕ) / 400 - 25) * 400 ≤ (i 0 : ℕ) ∧ (i 0 : ℕ) < (25 + (i 0 : ℕ) / 400 - 25) * 400 + 400
    omega
  | ⟨1, _⟩ =>
    show win0_4.index t 1 * win0_4.size 1 ≤ (i 1 : ℕ) ∧ (i 1 : ℕ) < win0_4.index t 1 * win0_4.size 1 + win0_4.xsize (grid0.coords t) 1
    rw [(idxO t ht).2, show win0_4.size 1 = 128 from rfl, show win0_4.xsize (grid0.coords t) 1 = 128 from rfl]
    omega

/-- So the result array ends at the graph convolution. -/
theorem final (c : Dev nD) : (dats m 0 c).arrAt 4 cfg0.N = G m c :=
  (dats m 0 c).arrAt_eq_of_cover 4 (G m c) (flushed_eq m c) (cover c)

/-- The idealized kernel's run: it terminates, the result array holds the graph convolution, the arguments are unchanged. -/
theorem run : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.Val

end
-- ==== Proof.RefValue.lean ====
/-
  The reference, stage by stage, is the graph convolution of the specification: each of its four `dot_general`s is a
  matrix product over the extended reals (the unused activation of the first layer plays no part in the result).
-/
import proofs.«169656_g90984587198652_cont_sun_m_16_7_alg».proof.Proof.Gen.ReferenceIdeal.Run
import proofs.«169656_g90984587198652_cont_sun_m_16_7_alg».proof.Proof.Gen.ReferenceIdeal.Read
import proofs.«169656_g90984587198652_cont_sun_m_16_7_alg».proof.Proof.Spec

noncomputable section

open scoped BigOperators

namespace Cert.ReferenceIdeal.RefValue

open Idealize.ShloMosaic Idealize.ShloMosaic.ValueIdx Cert.ReferenceIdeal Cert.ReferenceIdeal.Gen Cert.ReferenceIdeal.Read Cert.GcnSpec

/-- A rank-2 index with the given coordinates is `ix2` of them. -/
theorem idx_eq {n0 n1 : ℕ} (f : (⟨2, ![n0, n1]⟩ : Shape).Idx) (a : Fin n0) (b : Fin n1) (h0 : (f 0).val = a.val) (h1 : (f 1).val = b.val) :
    f = ix2 a b := funext fun d => Fin.ext (by
  match d with
  | ⟨0, _⟩ => exact h0
  | ⟨1, _⟩ => exact h1)

theorem v0_eq (x0 : (⟨S10000x128, .f32⟩ : BufTy).Contents (Elt Ideal)) (x2 : (⟨S128x128, .f32⟩ : BufTy).Contents (Elt Ideal)) :
    val_main_v0 (F := Ideal) x0 x2 = mm x0 x2 := by
  funext i
  rw [val_main_v0_apply]
  show _ = ∑ k : Fin 128, x0 (ix2 (⟨(i 0).val, idx2_lt0 i⟩ : Fin 10000) k) * x2 (ix2 k (⟨(i 1).val, idx2_lt1 i⟩ : Fin 128))
  refine Finset.sum_congr rfl fun k _ => ?_
  rw [idx_eq (lidx_main_v0 i k) (⟨(i 0).val, idx2_lt0 i⟩ : Fin 10000) k rfl rfl, idx_eq (ridx_main_v0 i k) k (⟨(i 1).val, idx2_lt1 i⟩ : Fin 128) rfl rfl]

theorem v1_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) :
    val_main_v1 (F := Ideal) x0 x1 x2 = mm x1 (mm x0 x2) := by
  funext i
  rw [val_main_v1_apply, v0_eq]
  show _ = ∑ k : Fin 10000, x1 (ix2 (⟨(i 0).val, idx2_lt0 i⟩ : Fin 10000) k) * (mm x0 x2) (ix2 k (⟨(i 1).val, idx2_lt1 i⟩ : Fin 128))
  refine Finset.sum_congr rfl fun k _ => ?_
  rw [idx_eq (lidx_main_v1 i k) (⟨(i 0).val, idx2_lt0 i⟩ : Fin 10000) k rfl rfl, idx_eq (ridx_main_v1 i k) k (⟨(i 1).val, idx2_lt1 i⟩ : Fin 128) rfl rfl]

theorem v3_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128x128, .f32⟩ : BufTy).Contents (Elt Ideal)) :
    val_main_v3 (F := Ideal) x0 x1 x2 x3 = mm (mm x1 (mm x0 x2)) x3 := by
  funext i
  rw [val_main_v3_apply, v1_eq]
  show _ = ∑ k : Fin 128, (mm x1 (mm x0 x2)) (ix2 (⟨(i 0).val, idx2_lt0 i⟩ : Fin 10000) k) * x3 (ix2 k (⟨(i 1).val, idx2_lt1 i⟩ : Fin 128))
  refine Finset.sum_congr rfl fun k _ => ?_
  rw [idx_eq (lidx_main_v3 i k) (⟨(i 0).val, idx2_lt0 i⟩ : Fin 10000) k rfl rfl, idx_eq (ridx_main_v3 i k) k (⟨(i 1).val, idx2_lt1 i⟩ : Fin 128) rfl rfl]

theorem v4_eq (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128x128, .f32⟩ : BufTy).Contents (Elt Ideal)) :
    val_main_v4 (F := Ideal) x0 x1 x2 x3 = gcn x0 x1 x2 x3 := by
  funext i
  rw [val_main_v4_apply, v3_eq]
  show _ = ∑ k : Fin 10000, x1 (ix2 (⟨(i 0).val, idx2_lt0 i⟩ : Fin 10000) k) * (mm (mm x1 (mm x0 x2)) x3) (ix2 k (⟨(i 1).val, idx2_lt1 i⟩ : Fin 128))
  refine Finset.sum_congr rfl fun k _ => ?_
  rw [idx_eq (lidx_main_v4 i k) (⟨(i 0).val, idx2_lt0 i⟩ : Fin 10000) k rfl rfl, idx_eq (ridx_main_v4 i k) k (⟨(i 1).val, idx2_lt1 i⟩ : Fin 128) rfl rfl]

end Cert.ReferenceIdeal.RefValue

end
-- ==== Proof.lean ====
/-
  A fused two-layer graph convolution against its reference, over the extended reals.

  The kernel runs a 2 × 25 grid over 400-row bands of the dense adjacency A (10000 × 10000).  Phase 0 computes
  z₁ = X·W₁ once into a scratch buffer and fills a second scratch H band by band with A·z₁; phase 1 computes
  z₂ = H·W₂ once and writes the bands of A·z₂ to the result.  The reference is A·((A·(X·W₁))·W₂) on the host, with an
  activation of the first layer that it computes and does not use.  At the ideal instance the kernel's roundings to
  bf16 are the identity and every product is the plain sum, so both sides are the same nested sums with the same
  grouping: no law of the extended reals beyond reading each product at an entry is needed, and the finiteness of
  the inputs is not used.

  The three frames: each kernel program's run is followed point by point with an invariant that names what the two
  scratch buffers hold (z₁ and the finished rows of H in phase 0, z₂ in phase 1); the reference's is its run.  The
  idealization changes no operation, so `preserves` has nothing to state.
-/
import proofs.«169656_g90984587198652_cont_sun_m_16_7_alg».proof.Defs
import proofs.«169656_g90984587198652_cont_sun_m_16_7_alg».proof.Proof.Gen.Kernel
import proofs.«169656_g90984587198652_cont_sun_m_16_7_alg».proof.Proof.Gen.KernelIdeal
import proofs.«169656_g90984587198652_cont_sun_m_16_7_alg».proof.Proof.Gen.ReferenceIdeal
import proofs.«169656_g90984587198652_cont_sun_m_16_7_alg».proof.Proof.Gen.Pre_finite_inputs
import proofs.«169656_g90984587198652_cont_sun_m_16_7_alg».proof.Proof.Gen.ReferenceIdeal.Run
import proofs.«169656_g90984587198652_cont_sun_m_16_7_alg».proof.Proof.Gen.ReferenceIdeal.Read
import proofs.«169656_g90984587198652_cont_sun_m_16_7_alg».proof.Proof.KB.Oblig
import proofs.«169656_g90984587198652_cont_sun_m_16_7_alg».proof.Proof.KI.Final
import proofs.«169656_g90984587198652_cont_sun_m_16_7_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Body.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end at the graph convolution of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.v4_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
